-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S600000 : Shape := ⟨1, ![600000]⟩
abbrev S100000x1 : Shape := ⟨2, ![100000, 1]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S600000 32) (main_v28 : IVec S_ 1) (main_v33 : IVec S100000 1) : IVec S_ 1 :=
  let main_c_12 : IVec S_ 1 := constantI S_ 1 1#1
  let main_v34 : IVec S_ 1 := (fun x v => Host.reduce IntOp.andi x v reducesTo_S100000_S_d0 h_S_) main_v33 main_c_12
  let main_v35 : IVec S_ 1 := andi main_v28 main_v34
  let main_c_13 : IVec S_ 32 := constantI S_ 32 4294867296#32
  let main_v36 : IVec S600000 32 := broadcastInDim S600000 ![] bcast_S_S600000 main_c_13
  let main_v37 : IVec S600000 1 := cmpi .sge main_arg1 main_v36
  let main_c_14 : IVec S_ 32 := constantI S_ 32 100000#32
  let main_v38 : IVec S600000 32 := broadcastInDim S600000 ![] bcast_S_S600000 main_c_14
  let main_v39 : IVec S600000 1 := cmpi .slt main_arg1 main_v38
  let main_v40 : IVec S600000 1 := andi main_v37 main_v39
  let main_c_15 : IVec S_ 1 := constantI S_ 1 1#1
  let main_v41 : IVec S_ 1 := (fun x v => Host.reduce IntOp.andi x v reducesTo_S600000_S_d0 h_S_) main_v40 main_c_15
  let main_v42 : IVec S_ 1 := andi main_v35 main_v41
  main_v42

def fn_part1 {F : FTy → Type} [FloatOps F] (main_arg0 : IVec S100000 32) (main_arg1 : IVec S600000 32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 4294867296#32
  let main_v29 : IVec S100000 32 := broadcastInDim S100000 ![] bcast_S_S100000 main_c_10
  let main_v30 : IVec S100000 1 := cmpi .sge main_arg0 main_v29
  let main_c_11 : IVec S_ 32 := constantI S_ 32 100000#32
  let main_v31 : IVec S100000 32 := broadcastInDim S100000 ![] bcast_S_S100000 main_c_11
  let main_v32 : IVec S100000 1 := cmpi .slt main_arg0 main_v31
  let main_v33 : IVec S100000 1 := andi main_v30 main_v32
  fn_part2 (F := F) main_arg1 main_v28 main_v33

def fn {F : FTy → Type} [FloatOps F] (main_arg0 : IVec S100000 32) (main_arg1 : IVec S600000 32) (main_arg2 : IVec S600000 32) (main_arg3 : FVec F S100000x1 .f32) (main_arg4 : FVec F S100000x128 .f32) (main_arg5 : FVec F S128x128 .f32) (main_arg6 : FVec F S128 .f32) (main_arg7 : FVec F S128x128 .f32) (main_arg8 : FVec F S128 .f32) : IVec S_ 1 :=
  let main_v0 : FVec F S100000x1 .f32 := Host.absf main_arg3
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S100000x128 .f32 := Host.absf main_arg4
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg7 main_arg8 main_v13 main_v16
-- ==== Kernel.lean ====
abbrev S100000 : Shape := ⟨1, ![100000]⟩
abbrev S600000 : Shape := ⟨1, ![600000]⟩
abbrev S100000x1 : Shape := ⟨2, ![100000, 1]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S1 : Shape := ⟨1, ![1]⟩
abbrev S1x1 : Shape := ⟨2, ![1, 1]⟩
abbrev S10000x128 : Shape := ⟨2, ![10000, 128]⟩
abbrev S10000x1 : Shape := ⟨2, ![10000, 1]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 92
  | .vmem => 28
  | .smem => 0
  | _ => 0

abbrev bufTy : (tb : Table) → Fin (tcTables nBuf tb) → BufTy
  | .hbm, ⟨0, _⟩ => ⟨S100000, .i32⟩
  | .hbm, ⟨1, _⟩ => ⟨S600000, .i32⟩
  | .hbm, ⟨2, _⟩ => ⟨S600000, .i32⟩
  | .hbm, ⟨3, _⟩ => ⟨S100000x1, .f32⟩
  | .hbm, ⟨4, _⟩ => ⟨S100000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S1, .i32⟩
  | .hbm, ⟨18, _⟩ => ⟨S_, .i32⟩
  | .hbm, ⟨19, _⟩ => ⟨S100000x1, .i32⟩
  | .hbm, ⟨20, _⟩ => ⟨S100000x1, .i1⟩
  | .hbm, ⟨21, _⟩ => ⟨S1x1, .i32⟩
  | .hbm, ⟨22, _⟩ => ⟨S100000x1, .i32⟩
  | .hbm, ⟨23, _⟩ => ⟨S100000x1, .i1⟩
  | .hbm, ⟨24, _⟩ => ⟨S100000x1, .i1⟩
  | .hbm, ⟨25, _⟩ => ⟨S_, .i1⟩
  | .hbm, ⟨26, _⟩ => ⟨S100000, .i1⟩
  | .hbm, ⟨27, _⟩ => ⟨S100000x128, .f32⟩
  | .hbm, ⟨28, _⟩ => ⟨S100000x128, .i1⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S1, .i32⟩
  | .hbm, ⟨42, _⟩ => ⟨S_, .i32⟩
  | .hbm, ⟨43, _⟩ => ⟨S600000x1, .i32⟩
  | .hbm, ⟨44, _⟩ => ⟨S600000x1, .i1⟩
  | .hbm, ⟨45, _⟩ => ⟨S1x1, .i32⟩
  | .hbm, ⟨46, _⟩ => ⟨S600000x1, .i32⟩
  | .hbm, ⟨47, _⟩ => ⟨S600000x1, .i1⟩
  | .hbm, ⟨48, _⟩ => ⟨S600000x1, .i1⟩
  | .hbm, ⟨49, _⟩ => ⟨S_, .i1⟩
  | .hbm, ⟨50, _⟩ => ⟨S600000, .i1⟩
  | .hbm, ⟨51, _⟩ => ⟨S600000x128, .f32⟩
  | .hbm, ⟨52, _⟩ => ⟨S600000x128, .i1⟩
  | .hbm, ⟨53, _⟩ => ⟨S_, .f32⟩
  | .hbm, ⟨54, _⟩ => ⟨S600000x128, .f32⟩
  | .hbm, ⟨55, _⟩ => ⟨S600000x128, .f32⟩
  | .hbm, ⟨56, _⟩ => ⟨S_, .f32⟩
  | .hbm, ⟨57, _⟩ => ⟨S100000x128, .f32⟩
  | .hbm, ⟨58, _⟩ => ⟨S600000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S1, .i32⟩
  | .hbm, ⟨72, _⟩ => ⟨S_, .i32⟩
  | .hbm, ⟨73, _⟩ => ⟨S600000x1, .i32⟩
  | .hbm, ⟨74, _⟩ => ⟨S600000x1, .i1⟩
  | .hbm, ⟨75, _⟩ => ⟨S1x1, .i32⟩
  | .hbm, ⟨76, _⟩ => ⟨S600000x1, .i32⟩
  | .hbm, ⟨77, _⟩ => ⟨S600000x1, .i1⟩
  | .hbm, ⟨78, _⟩ => ⟨S600000x1, .i1⟩
  | .hbm, ⟨79, _⟩ => ⟨S_, .i1⟩
  | .hbm, ⟨80, _⟩ => ⟨S600000, .i1⟩
  | .hbm, ⟨81, _⟩ => ⟨S600000x128, .f32⟩
  | .hbm, ⟨82, _⟩ => ⟨S600000x128, .i1⟩
  | .hbm, ⟨83, _⟩ => ⟨S_, .f32⟩
  | .hbm, ⟨84, _⟩ => ⟨S600000x128, .f32⟩
  | .hbm, ⟨85, _⟩ => ⟨S600000x128, .f32⟩
  | .hbm, ⟨86, _⟩ => ⟨S_, .f32⟩
  | .hbm, ⟨87, _⟩ => ⟨S100000x128, .f32⟩
  | .hbm, ⟨88, _⟩ => ⟨S600000x1, .i32⟩
  | .hbm, ⟨89, _⟩ => ⟨S100000x128, .f32⟩
  | .hbm, ⟨90, _⟩ => ⟨S1x128, .f32⟩
  | .hbm, ⟨91, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x1, .f32⟩
  | .local _ .vmem, ⟨18, _⟩ => ⟨S10000x1, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v2 : Ref sig .tc := ⟨.hbm, 55, rfl⟩
abbrev main_cst : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v9 : Ref sig .tc := ⟨.hbm, 85, rfl⟩
abbrev main_cst_0 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  broadcasts_S10000x1_S10000x128 : S10000x1.Broadcasts S10000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1x1_S600000x1_0_1 : S1x1.BroadcastsInDim S600000x1 (![0, 1] : Fin 2 → Fin S600000x1.rank)
  reducesTo_S600000x1_S600000_d1 : S600000x1.ReducesTo [1] S600000
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S100000x1_S100000x128_1_0_n_n_0_1_1128_wf : GatherDims.WF S100000x128 S100000x1 S100000x128 [1] [0] [] [0] [] 1 ![1, 128]
  dot_S10000x128_S128x128_S10000x128_1_0_0_1_n_n_wf : DotDims.WF S10000x128 S128x128 S10000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000 : Shape := ⟨1, ![100000]⟩
abbrev S600000 : Shape := ⟨1, ![600000]⟩
abbrev S100000x1 : Shape := ⟨2, ![100000, 1]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000, .i32⟩
  | .hbm, ⟨1, _⟩ => ⟨S600000, .i32⟩
  | .hbm, ⟨2, _⟩ => ⟨S600000, .i32⟩
  | .hbm, ⟨3, _⟩ => ⟨S100000x1, .f32⟩
  | .hbm, ⟨4, _⟩ => ⟨S100000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S100000x128, .f32⟩
  | .hbm, ⟨32, _⟩ => ⟨S600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .i1⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .i1⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S100000x1_S100000x128_1_0_n_n_0_1_1128_wf : GatherDims.WF S100000x128 S100000x1 S100000x128 [1] [0] [] [0] [] 1 ![1, 128]
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.Spec.lean ====
/-
  The mathematics of one graph-convolution layer, index by index on the extended reals, over the literal shapes of this
  program (100000 nodes, 128 features). `proj`: every node's feature row through the weight matrix, the result row
  scaled by the node's norm. `gate`: the aggregated row scaled by the norm again, the bias added, and the leaky
  rectifier with slope `f32 0.2` applied (`leaky`). Both programs are read against these two functions; the gather
  and the scatter-sum between them are the host's own operations on both sides and are never opened.
-/
import Idealize.ShloMosaic.PureOps.Ideal
import Idealize.ShloMosaic.Lib.ValueIdx

noncomputable section

namespace Cert.Gcn

open Idealize.ShloMosaic Idealize.ShloMosaic.ValueIdx

abbrev SNH : Shape := ⟨2, ![100000, 128]⟩
abbrev SN1 : Shape := ⟨2, ![100000, 1]⟩
abbrev SHH : Shape := ⟨2, ![128, 128]⟩
abbrev S1H : Shape := ⟨2, ![1, 128]⟩
abbrev SH : Shape := ⟨1, ![128]⟩

/-- Row `r`, column `q` of the projection: `(∑ₖ h[r,k] · w[k,q]) · n[r,0]`. -/
def projAt (h : FVec Ideal SNH .f32) (w : FVec Ideal SHH .f32) (n : FVec Ideal SN1 .f32) (r : Fin 100000) (q : Fin 128) : EReal :=
  (∑ k : Fin 128, h (ix2 r k) * w (ix2 k q)) * n (ix2 r (0 : Fin 1))

/-- The projection as a whole array. -/
def proj (h : FVec Ideal SNH .f32) (w : FVec Ideal SHH .f32) (n : FVec Ideal SN1 .f32) : FVec Ideal SNH .f32 :=
  fun i => projAt h w n ⟨(i 0).val, idx2_lt0 i⟩ ⟨(i 1).val, idx2_lt1 i⟩

/-- The leaky rectifier: `y` where `y > 0`, else `f32 0.2 · y` (the literal is the same word in both programs). -/
def leaky (y : EReal) : EReal :=
  Scalar.select (FloatOps.cmpf (F := Ideal) (φ := .f32) .ogt y (Ideal.ofBits .f32 0x00000000#32)) y
    (Ideal.ofBits .f32 0x3E4CCCCD#32 * y)

/-- Row `r`, column `q` of the gate: `leaky (agg[r,q] · n[r,0] + b[q])`. -/
def gateAt (agg : FVec Ideal SNH .f32) (n : FVec Ideal SN1 .f32) (b : FVec Ideal SH .f32) (r : Fin 100000) (q : Fin 128) : EReal :=
  leaky (agg (ix2 r q) * n (ix2 r (0 : Fin 1)) + b (ix1 q))

/-- The gate as a whole array. -/
def gate (agg : FVec Ideal SNH .f32) (n : FVec Ideal SN1 .f32) (b : FVec Ideal SH .f32) : FVec Ideal SNH .f32 :=
  fun i => gateAt agg n b ⟨(i 0).val, idx2_lt0 i⟩ ⟨(i 1).val, idx2_lt1 i⟩

abbrev SEH : Shape := ⟨2, ![600000, 128]⟩

/-- A [1, 128] row read as a vector of 128. -/
def rowOf (b : FVec Ideal S1H .f32) : FVec Ideal SH .f32 := fun q => b (ix2 (0 : Fin 1) ⟨(q 0).val, (q 0).isLt⟩)

/-- One layer: project, read the rows the edges name (`take`), sum them into their destinations (`seg`), gate. The two
    host operations are parameters: each program supplies its own, and they are compared as whole functions. -/
def layer (take : FVec Ideal SNH .f32 → FVec Ideal SEH .f32) (seg : FVec Ideal SEH .f32 → FVec Ideal SNH .f32)
    (h : FVec Ideal SNH .f32) (w : FVec Ideal SHH .f32) (b : FVec Ideal SH .f32) (n : FVec Ideal SN1 .f32) : FVec Ideal SNH .f32 :=
  gate (seg (take (proj h w n))) n b

theorem proj_ix2 (h : FVec Ideal SNH .f32) (w : FVec Ideal SHH .f32) (n : FVec Ideal SN1 .f32) (r : Fin 100000) (q : Fin 128) :
    proj h w n (ix2 r q) = projAt h w n r q := rfl

theorem gate_ix2 (agg : FVec Ideal SNH .f32) (n : FVec Ideal SN1 .f32) (b : FVec Ideal SH .f32) (r : Fin 100000) (q : Fin 128) :
    gate agg n b (ix2 r q) = gateAt agg n b r q := rfl

end Cert.Gcn

end
-- ==== Proof.LibLayout.lean ====
/-
  Two small general facts about vector layouts, over no program.
-/
import Idealize.ShloMosaic.Lib.Pipeline.Value
import Idealize.ShloMosaic.Lib.ValueIdx

noncomputable section

namespace Cert.Lib.Layout

open Idealize.ShloMosaic Idealize.ShloMosaic.ValueIdx

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a whole-block access of rank two, spelt as a constant function. -/
theorem zero_offsets : (![0, 0] : Fin 2 → Nat) = fun _ => 0 := funext fun a => by fin_cases a <;> rfl

end Cert.Lib.Layout

end
-- ==== Proof.KProj.lean ====
/-
  What the two projection regions leave in their result arrays: the ten row blocks each point writes back are the
  blocks of ONE whole-array function, `Cert.Gcn.proj` of the three arrays the region reads as it finds them.
  First the stored value at one entry of a block (the product into a zero accumulator is the plain sum over the
  contraction coordinate, the narrowing to bf16 is the identity on the extended reals, the norm column is laid along
  every column); then, per region, each block read where the output's rectangle says, and the ten blocks filling the array.
-/
import proofs.«418681_j30966714204810_1_alg».proof.Proof.Gen.KernelIdeal.Frame
import proofs.«418681_j30966714204810_1_alg».proof.Proof.Spec
import proofs.«418681_j30966714204810_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Lib.Layout
open Idealize.ShloMosaic.ValueIdx

/-! ## The body's payload at one entry -/

/-- The left operand of the block product is read at (row of the result, contraction coordinate) … -/
theorem lhs_row (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_col (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
/-- … and the right operand at (contraction coordinate, column of the result). -/
theorem rhs_row (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
theorem rhs_col (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product into a zero accumulator, at entry `(p, q)`: `∑ₖ a[p,k] · b[k,q]`. -/
theorem matmul_at {φ₁ φ₂ : FTy} (a : FVec Ideal S10000x128 φ₁) (b : FVec Ideal S128x128 φ₂) (p : Fin 10000) (q : Fin 128) :
    matmul dot_S10000x128_S128x128_S10000x128_1_0_0_1_n_n none a b (constant S10000x128 .f32 0x00000000#32) (ix2 p q)
      = ∑ k : Fin 128, a (ix2 p k) * b (ix2 k q) := by
  show FloatOps.matmul dot_S10000x128_S128x128_S10000x128_1_0_0_1_n_n none a b (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun ax => Fin.ext (by
    match ax with
    | ⟨0, _⟩ => exact lhs_row _ _
    | ⟨1, _⟩ => exact (lhs_col _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-- The projection body's stored value at entry `(p, q)` of its block: the row of the first block through the weight
    matrix, scaled by the row's entry of the norm column (the narrowing to bf16 is the identity on the extended reals). -/
theorem proj_payload_at (x0 : Vec Ideal S10000x128 .f32) (x1 : Vec Ideal S128x128 .f32) (x2 : Vec Ideal S10000x1 .f32)
    (p : Fin 10000) (q : Fin 128) :
    k0_pay1 x0 x1 x2 (ix2 p q) = (∑ k : Fin 128, x0 (ix2 p k) * x1 (ix2 k q)) * x2 (ix2 p (0 : Fin 1)) := by
  unfold k0_pay1
  rw [ValueIdx.mulf_apply, matmul_at, broadcastTo_a1_ab_apply, shapeCast_self]
  rfl

/-- The two projection bodies are the same function of their three blocks. -/
theorem k2_pay1_eq : @k2_pay1 Ideal _ = @k0_pay1 Ideal _ := rfl

/-- ONE ENTRY OF A BLOCK IS ONE ENTRY OF THE ARRAY'S PROJECTION. If row `p` of the first block is row `r` of `h`, the second
    block's column `q` is `w`'s, and the norm block's row `p` is row `r` of `n`, the body's stored value at `(p, q)` is the
    projection of `(h, w, n)` at `(r, q)`. -/
theorem proj_block_entry (h : FVec Ideal Cert.Gcn.SNH .f32) (w : FVec Ideal Cert.Gcn.SHH .f32) (n : FVec Ideal Cert.Gcn.SN1 .f32)
    (x0 : Vec Ideal S10000x128 .f32) (x1 : Vec Ideal S128x128 .f32) (x2 : Vec Ideal S10000x1 .f32)
    (p : Fin 10000) (q : Fin 128) (r : Fin 100000)
    (h0 : ∀ k : Fin 128, x0 (ix2 p k) = h (ix2 r k)) (h1 : ∀ k : Fin 128, x1 (ix2 k q) = w (ix2 k q))
    (h2 : x2 (ix2 p (0 : Fin 1)) = n (ix2 r (0 : Fin 1))) :
    k0_pay1 x0 x1 x2 (ix2 p q) = Cert.Gcn.proj h w n (ix2 r q) := by
  rw [proj_payload_at, Cert.Gcn.proj_ix2, h2]
  unfold Cert.Gcn.projAt
  exact congrArg (· * _) (Finset.sum_congr rfl fun k _ => by rw [h0 k, h1 k])

/-- The same for the second projection body. -/
theorem proj_block_entry' (h : FVec Ideal Cert.Gcn.SNH .f32) (w : FVec Ideal Cert.Gcn.SHH .f32) (n : FVec Ideal Cert.Gcn.SN1 .f32)
    (x0 : Vec Ideal S10000x128 .f32) (x1 : Vec Ideal S128x128 .f32) (x2 : Vec Ideal S10000x1 .f32)
    (p : Fin 10000) (q : Fin 128) (r : Fin 100000)
    (h0 : ∀ k : Fin 128, x0 (ix2 p k) = h (ix2 r k)) (h1 : ∀ k : Fin 128, x1 (ix2 k q) = w (ix2 k q))
    (h2 : x2 (ix2 p (0 : Fin 1)) = n (ix2 r (0 : Fin 1))) :
    k2_pay1 x0 x1 x2 (ix2 p q) = Cert.Gcn.proj h w n (ix2 r q) := by
  rw [k2_pay1_eq]
  exact proj_block_entry h w n x0 x1 x2 p q r h0 h1 h2

variable (V : (c : Dev nD) → (b : Ref sig .tc) → Buf (Elt Ideal) ((c : Thread nD τ).loc b))

/-! ## Region 0: from the ten row blocks to the array -/

/-- Region 0's printed index maps, decided over the ten points: the two row-blocked inputs move with the output, block
    `(t, 0)` at point `t`; the weight is always its one block `(0, 0)`. -/
theorem index_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 ∧ t.val ≤ 9 :=
  (by decide +kernel : ∀ t : Fin grid0.N, _)

/-- Every one of the ten row blocks of the result is some point's. -/
theorem index_onto0 : ∀ b : Fin 10, ∃ t : Fin cfg0.N, win0_3.index t (0 : Fin 2) = b.val ∧ win0_3.index t (1 : Fin 2) = 0 :=
  (by decide +kernel : ∀ b : Fin 10, ∃ t : Fin grid0.N, win0_3.index t (0 : Fin 2) = b.val ∧ win0_3.index t (1 : Fin 2) = 0)

/-- What point `t` writes back is block `t` of the projection of the three arrays as the region finds them. -/
theorem flushed_eq0 (c : Dev nD) (t : Fin cfg0.N) :
    (dat0 V c).flushed 3 t = ((cfg0.win 3).blk t).view.read (Elt Ideal) (Cert.Gcn.proj (V c main_v0) (V c main_arg5) (V c main_arg3)) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x128) zero_offsets, View.ld_unit_zero (S := S10000x1) zero_offsets]
  obtain ⟨e00, e01, e10, e11, e20, e21, e30, e31, ht⟩ := index_facts0 t
  funext j
  have hp : (j 0).val < 10000 := (j 0).isLt
  have hq : (j 1).val < 128 := (j 1).isLt
  have hj : (win0_3.xinj (grid0.coords t) j : S10000x128.Idx) = ix2 ⟨(j 0).val, hp⟩ ⟨(j 1).val, hq⟩ :=
    funext fun a => by match a with | ⟨0, _⟩ => rfl | ⟨1, _⟩ => rfl
  refine ((congrArg (k0_pay1 (iblk0 V c 0 t) (iblk0 V c 1 t) (iblk0 V c 2 t)) hj).trans
    (proj_block_entry (V c main_v0) (V c main_arg5) (V c main_arg3) (iblk0 V c 0 t) (iblk0 V c 1 t) (iblk0 V c 2 t)
      ⟨(j 0).val, hp⟩ ⟨(j 1).val, hq⟩ ⟨win0_3.index t (0 : Fin 2) * 10000 + (j 0).val, by omega⟩ ?_ ?_ ?_)).trans ?_
  · intro k
    show V c main_v0 (((cfg0.win 0).blk t).view.emb (ix2 ⟨(j 0).val, hp⟩ k)) = V c main_v0 _
    refine congrArg _ (funext fun a => Fin.ext ?_)
    match a with
    | ⟨0, _⟩ => show win0_0.index t (0 : Fin 2) * 10000 + 1 * (j 0).val = win0_3.index t (0 : Fin 2) * 10000 + (j 0).val; omega
    | ⟨1, _⟩ => show win0_0.index t (1 : Fin 2) * 128 + 1 * k.val = k.val; omega
  · intro k
    show V c main_arg5 (((cfg0.win 1).blk t).view.emb (ix2 k ⟨(j 1).val, hq⟩)) = V c main_arg5 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  · show V c main_arg3 (((cfg0.win 2).blk t).view.emb (ix2 ⟨(j 0).val, hp⟩ (0 : Fin 1))) = V c main_arg3 _
    refine congrArg _ (funext fun a => Fin.ext ?_)
    match a with
    | ⟨0, _⟩ => show win0_2.index t (0 : Fin 2) * 10000 + 1 * (j 0).val = win0_3.index t (0 : Fin 2) * 10000 + (j 0).val; omega
    | ⟨1, _⟩ => show win0_2.index t (1 : Fin 2) * 1 + 1 * 0 = 0; omega
  · show Cert.Gcn.proj (V c main_v0) (V c main_arg5) (V c main_arg3) _ = Cert.Gcn.proj (V c main_v0) (V c main_arg5) (V c main_arg3) (((cfg0.win 3).blk t).view.emb j)
    refine congrArg _ (funext fun a => Fin.ext ?_)
    match a with
    | ⟨0, _⟩ => show win0_3.index t (0 : Fin 2) * 10000 + (j 0).val = win0_3.index t (0 : Fin 2) * 10000 + 1 * (j 0).val; omega
    | ⟨1, _⟩ => show (j 1).val = win0_3.index t (1 : Fin 2) * 128 + 1 * (j 1).val; omega

/-- An entry of the result array is in point `t`'s block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- The ten blocks fill the array: row `r` is in the block of point `r / 10000`, and every point writes back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, q0, q1⟩ := index_onto0 ⟨(i 0).val / 10000, by omega⟩
  have q0' : win0_3.index t (0 : Fin 2) = (i 0).val / 10000 := q0
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- Region 0's result array after its ten points: the projection of the gathered embedding rows. -/
theorem final0 (c : Dev nD) :
    (dat0 V c).arrAt 3 cfg0.N = Cert.Gcn.proj (V c main_v0) (V c main_arg5) (V c main_arg3) := by
  exact (dat0 V c).arrAt_eq_of_cover 3 _ (fun t _ => flushed_eq0 V c t) cover0

/-! ## Region 2: from the ten row blocks to the array -/

/-- Region 2's printed index maps, decided over the ten points: the two row-blocked inputs move with the output, block
    `(t, 0)` at point `t`; the weight is always its one block `(0, 0)`. -/
theorem index_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (0 : Fin 2) = t.val ∧ win2_3.index t (1 : Fin 2) = 0 ∧ t.val ≤ 9 :=
  (by decide +kernel : ∀ t : Fin grid2.N, _)

/-- Every one of the ten row blocks of the result is some point's. -/
theorem index_onto2 : ∀ b : Fin 10, ∃ t : Fin cfg2.N, win2_3.index t (0 : Fin 2) = b.val ∧ win2_3.index t (1 : Fin 2) = 0 :=
  (by decide +kernel : ∀ b : Fin 10, ∃ t : Fin grid2.N, win2_3.index t (0 : Fin 2) = b.val ∧ win2_3.index t (1 : Fin 2) = 0)

/-- What point `t` writes back is block `t` of the projection of the three arrays as the region finds them. -/
theorem flushed_eq2 (c : Dev nD) (t : Fin cfg2.N) :
    (dat2 V c).flushed 3 t = ((cfg2.win 3).blk t).view.read (Elt Ideal) (Cert.Gcn.proj (V c main_v7) (V c main_arg7) (V c main_arg3)) := by
  show (cfg2.win 3).cut (grid2.coords t) ((dat2 V c).after 3 t) = _
  rw [after2_3]
  unfold out2_3
  rw [View.canon_unit_zero zero_offsets]
  simp only [View.ld_unit_zero (S := S10000x128) zero_offsets, View.ld_unit_zero (S := S128x128) zero_offsets, View.ld_unit_zero (S := S10000x1) zero_offsets]
  obtain ⟨e00, e01, e10, e11, e20, e21, e30, e31, ht⟩ := index_facts2 t
  funext j
  have hp : (j 0).val < 10000 := (j 0).isLt
  have hq : (j 1).val < 128 := (j 1).isLt
  have hj : (win2_3.xinj (grid2.coords t) j : S10000x128.Idx) = ix2 ⟨(j 0).val, hp⟩ ⟨(j 1).val, hq⟩ :=
    funext fun a => by match a with | ⟨0, _⟩ => rfl | ⟨1, _⟩ => rfl
  refine ((congrArg (k2_pay1 (iblk2 V c 0 t) (iblk2 V c 1 t) (iblk2 V c 2 t)) hj).trans
    (proj_block_entry' (V c main_v7) (V c main_arg7) (V c main_arg3) (iblk2 V c 0 t) (iblk2 V c 1 t) (iblk2 V c 2 t)
      ⟨(j 0).val, hp⟩ ⟨(j 1).val, hq⟩ ⟨win2_3.index t (0 : Fin 2) * 10000 + (j 0).val, by omega⟩ ?_ ?_ ?_)).trans ?_
  · intro k
    show V c main_v7 (((cfg2.win 0).blk t).view.emb (ix2 ⟨(j 0).val, hp⟩ k)) = V c main_v7 _
    refine congrArg _ (funext fun a => Fin.ext ?_)
    match a with
    | ⟨0, _⟩ => show win2_0.index t (0 : Fin 2) * 10000 + 1 * (j 0).val = win2_3.index t (0 : Fin 2) * 10000 + (j 0).val; omega
    | ⟨1, _⟩ => show win2_0.index t (1 : Fin 2) * 128 + 1 * k.val = k.val; omega
  · intro k
    show V c main_arg7 (((cfg2.win 1).blk t).view.emb (ix2 k ⟨(j 1).val, hq⟩)) = V c main_arg7 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = (j 1).val; omega
  · show V c main_arg3 (((cfg2.win 2).blk t).view.emb (ix2 ⟨(j 0).val, hp⟩ (0 : Fin 1))) = V c main_arg3 _
    refine congrArg _ (funext fun a => Fin.ext ?_)
    match a with
    | ⟨0, _⟩ => show win2_2.index t (0 : Fin 2) * 10000 + 1 * (j 0).val = win2_3.index t (0 : Fin 2) * 10000 + (j 0).val; omega
    | ⟨1, _⟩ => show win2_2.index t (1 : Fin 2) * 1 + 1 * 0 = 0; omega
  · show Cert.Gcn.proj (V c main_v7) (V c main_arg7) (V c main_arg3) _ = Cert.Gcn.proj (V c main_v7) (V c main_arg7) (V c main_arg3) (((cfg2.win 3).blk t).view.emb j)
    refine congrArg _ (funext fun a => Fin.ext ?_)
    match a with
    | ⟨0, _⟩ => show win2_3.index t (0 : Fin 2) * 10000 + (j 0).val = win2_3.index t (0 : Fin 2) * 10000 + 1 * (j 0).val; omega
    | ⟨1, _⟩ => show (j 1).val = win2_3.index t (1 : Fin 2) * 128 + 1 * (j 1).val; omega

/-- An entry of the result array is in point `t`'s block iff each coordinate is in the block's range on its axis. -/
theorem mem_blk2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v8).slice (win2_3.rect t)).set ↔ _
  rw [View.set_slice_whole, Rect.mem_set_unit]
  exact Iff.rfl

/-- The ten blocks fill the array: row `r` is in the block of point `r / 10000`, and every point writes back. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, q0, q1⟩ := index_onto2 ⟨(i 0).val / 10000, by omega⟩
  have q0' : win2_3.index t (0 : Fin 2) = (i 0).val / 10000 := q0
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- Region 2's result array: the projection of the first layer's output. -/
theorem final2 (c : Dev nD) :
    (dat2 V c).arrAt 3 cfg2.N = Cert.Gcn.proj (V c main_v7) (V c main_arg7) (V c main_arg3) := by
  exact (dat2 V c).arrAt_eq_of_cover 3 _ (fun t _ => flushed_eq2 V c t) cover2

end Cert.KernelIdeal.Hand

end
-- ==== Proof.KGate.lean ====
/-
  What the two gate regions leave in their result arrays: the ten row blocks each point writes back are the blocks of
  ONE whole-array function, `Cert.Gcn.gate` of the aggregate, the norm column and the bias row as the region finds them.
-/
import proofs.«418681_j30966714204810_1_alg».proof.Proof.Gen.KernelIdeal.Frame
import proofs.«418681_j30966714204810_1_alg».proof.Proof.Spec
import proofs.«418681_j30966714204810_1_alg».proof.Proof.LibLayout
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.Lib.Layout

/-! ## The body's stored value at an entry (both regions run the same body) -/

/-- The gate body's stored value at row `p`, column `q` of its block: the leaky rectifier of
    `x0[p,q] · x1[p,0] + x2[0,q]`. -/
theorem gate_payload_at (x0 : Vec Ideal S10000x128 .f32) (x1 : Vec Ideal S10000x1 .f32) (x2 : Vec Ideal S1x128 .f32)
    (p : Fin 10000) (q : Fin 128) :
    k1_pay1 x0 x1 x2 (ix2 p q) = Cert.Gcn.leaky (x0 (ix2 p q) * x1 (ix2 p (0 : Fin 1)) + x2 (ix2 (0 : Fin 1) q)) := by
  unfold k1_pay1
  simp only [select_apply, cmpf_apply, mulf_apply, addf_apply, broadcast_apply, shapeCast_self,
    broadcastTo_1b_ab_apply, broadcastTo_a1_ab_apply]
  rfl

/-- The second gate region's body stores the same function of its three blocks as the first's. -/
theorem gate_payload_same (x0 : Vec Ideal S10000x128 .f32) (x1 : Vec Ideal S10000x1 .f32) (x2 : Vec Ideal S1x128 .f32) :
    k3_pay1 x0 x1 x2 = k1_pay1 x0 x1 x2 := by
  unfold k3_pay1 k1_pay1
  rfl

/-- One entry of a stored block is the gate's entry in row `r` of the whole arrays, as soon as the three entries the
    body reads are the arrays' entries in that row (`h0`, `h1`) and in the bias row (`h2`). -/
theorem gate_entry (agg : FVec Ideal Cert.Gcn.SNH .f32) (n : FVec Ideal Cert.Gcn.SN1 .f32) (b : FVec Ideal Cert.Gcn.S1H .f32)
    (x0 : Vec Ideal S10000x128 .f32) (x1 : Vec Ideal S10000x1 .f32) (x2 : Vec Ideal S1x128 .f32)
    (p : Fin 10000) (q : Fin 128) (r : Fin 100000)
    (h0 : x0 (ix2 p q) = agg (ix2 r q)) (h1 : x1 (ix2 p (0 : Fin 1)) = n (ix2 r (0 : Fin 1)))
    (h2 : x2 (ix2 (0 : Fin 1) q) = b (ix2 (0 : Fin 1) q)) :
    k1_pay1 x0 x1 x2 (ix2 p q) = Cert.Gcn.gate agg n (Cert.Gcn.rowOf b) (ix2 r q) := by
  rw [gate_payload_at, h0, h1, h2, Cert.Gcn.gate_ix2]
  rfl

variable (V : (c : Dev nD) → (b : Ref sig .tc) → Buf (Elt Ideal) ((c : Thread nD τ).loc b))

/-! ## Region 1 -/

/-- The block indices of region 1's four windows at grid point `t`, decided over the ten points: the aggregate's,
    the norm column's and the result's blocks are block `t` of the rows, the bias row's is always block 0. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, q)` of the aggregate's block at point `t` is entry `(r, q)` of the aggregate, `r = 10000·t + p`. -/
theorem agg_block1 (c : Dev nD) (t : Fin cfg1.N) (p : Fin 10000) (q : Fin 128) (r : Fin 100000)
    (hr : r.val = 10000 * t.val + p.val) :
    (iblk1 V c 0 t : Vec Ideal S10000x128 .f32) (ix2 p q) = (V c main_v5 : S100000x128.Idx → Elt Ideal .f32) (ix2 r q) := by
  obtain ⟨e0, e1, -⟩ := block_indices1 t
  unfold iblk1
  show V c main_v5 (((cfg1.win 0).blk t).view.emb (ix2 p q)) = V c main_v5 (ix2 r q)
  refine congrArg _ (funext fun a => Fin.ext ?_)
  match a with
  | ⟨0, _⟩ => show win1_0.index t (0 : Fin 2) * 10000 + 1 * p.val = r.val; rw [e0, hr]; omega
  | ⟨1, _⟩ => show win1_0.index t (1 : Fin 2) * 128 + 1 * q.val = q.val; rw [e1]; omega

/-- Entry `(p, 0)` of the norm column's block at point `t` is entry `(r, 0)` of the column, `r = 10000·t + p`. -/
theorem norm_block1 (c : Dev nD) (t : Fin cfg1.N) (p : Fin 10000) (r : Fin 100000)
    (hr : r.val = 10000 * t.val + p.val) :
    (iblk1 V c 1 t : Vec Ideal S10000x1 .f32) (ix2 p (0 : Fin 1)) = (V c main_arg3 : S100000x1.Idx → Elt Ideal .f32) (ix2 r (0 : Fin 1)) := by
  obtain ⟨-, -, e0, e1, -⟩ := block_indices1 t
  unfold iblk1
  show V c main_arg3 (((cfg1.win 1).blk t).view.emb (ix2 p (0 : Fin 1))) = V c main_arg3 (ix2 r (0 : Fin 1))
  refine congrArg _ (funext fun a => Fin.ext ?_)
  match a with
  | ⟨0, _⟩ => show win1_1.index t (0 : Fin 2) * 10000 + 1 * p.val = r.val; rw [e0, hr]; omega
  | ⟨1, _⟩ => show win1_1.index t (1 : Fin 2) * 1 + 1 * 0 = 0; rw [e1]

/-- The bias row's block at every point is the whole row. -/
theorem bias_block1 (c : Dev nD) (t : Fin cfg1.N) (q : Fin 128) :
    (iblk1 V c 2 t : Vec Ideal S1x128 .f32) (ix2 (0 : Fin 1) q) = (V c main_v6 : S1x128.Idx → Elt Ideal .f32) (ix2 (0 : Fin 1) q) := by
  obtain ⟨-, -, -, -, e0, e1, -⟩ := block_indices1 t
  unfold iblk1
  show V c main_v6 (((cfg1.win 2).blk t).view.emb (ix2 (0 : Fin 1) q)) = V c main_v6 (ix2 (0 : Fin 1) q)
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- What point `t` writes back is block `t` of the gate of the three arrays as the region finds them. -/
theorem flushed_gate1 (c : Dev nD) (t : Fin cfg1.N) :
    (dat1 V c).flushed 3 t = ((cfg1.win 3).blk t).view.read (Elt Ideal)
      (Cert.Gcn.gate (V c main_v5) (V c main_arg3) (Cert.Gcn.rowOf (V c main_v6))) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S10000x1) zero_offsets,
    View.ld_unit_zero (S := S1x128) zero_offsets]
  obtain ⟨-, -, -, -, -, -, e0, e1⟩ := block_indices1 t
  have hN : grid1.N = 10 := N_1
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  have hemb : ((cfg1.win 3).blk t).view.emb (ix2 p q) = ix2 (⟨10000 * t.val + p.val, by omega⟩ : Fin 100000) q := by
    funext a; apply Fin.ext
    match a with
    | ⟨0, _⟩ => show win1_3.index t (0 : Fin 2) * 10000 + 1 * p.val = 10000 * t.val + p.val; rw [e0]; omega
    | ⟨1, _⟩ => show win1_3.index t (1 : Fin 2) * 128 + 1 * q.val = q.val; rw [e1]; omega
  show k1_pay1 (iblk1 V c 0 t) (iblk1 V c 1 t) (iblk1 V c 2 t) (ix2 p q)
    = Cert.Gcn.gate (V c main_v5) (V c main_arg3) (Cert.Gcn.rowOf (V c main_v6)) (((cfg1.win 3).blk t).view.emb (ix2 p q))
  rw [hemb]
  exact gate_entry (V c main_v5) (V c main_arg3) (V c main_v6) (iblk1 V c 0 t) (iblk1 V c 1 t) (iblk1 V c 2 t) p q _
    (agg_block1 V c t p q _ rfl) (norm_block1 V c t p _ rfl) (bias_block1 V c t q)

/-- An index of the result array is in point `t`'s block iff each coordinate is in the block's range on its axis. -/
theorem mem_block1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v7).slice (win1_3.rect t)).set ↔ _
  rw [View.set_slice_whole, Rect.mem_set_unit]
  exact Iff.rfl

/-- Every entry of the result array is written back: row `r` lies in the block of point `r / 10000`. -/
theorem cover1 (i : S100000x128.Idx) :
    ∃ t : Fin cfg1.N, (cfg1.win 3).flush t = true ∧ i ∈ ((cfg1.win 3).blk t).view.set := by
  have hN : grid1.N = 10 := N_1
  have hi0 : (i 0).val < 100000 := (i 0).isLt
  have hi1 : (i 1).val < 128 := (i 1).isLt
  have hlt : (i 0).val / 10000 < grid1.N := by rw [hN]; omega
  obtain ⟨-, -, -, -, -, -, e0, e1⟩ := block_indices1 ⟨(i 0).val / 10000, hlt⟩
  refine ⟨⟨(i 0).val / 10000, hlt⟩, flush1_3 _, ?_⟩
  rw [mem_block1]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, hlt⟩ (1 : Fin 2) * 128 ≤ (i 1).val
      ∧ (i 1).val < win1_3.index ⟨(i 0).val / 10000, hlt⟩ (1 : Fin 2) * 128 + 128
    rw [e1]; omega

/-- Region 1's result array after its ten points: the first layer's gate. -/
theorem final1 (c : Dev nD) :
    (dat1 V c).arrAt 3 cfg1.N = Cert.Gcn.gate (V c main_v5) (V c main_arg3) (Cert.Gcn.rowOf (V c main_v6)) := by
  exact (dat1 V c).arrAt_eq_of_cover 3 _ (fun t _ => flushed_gate1 V c t) cover1

/-! ## Region 3 -/

/-- The block indices of region 3's four windows at grid point `t`, decided over the ten points: the aggregate's,
    the norm column's and the result's blocks are block `t` of the rows, the bias row's is always block 0. -/
theorem block_indices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry `(p, q)` of the aggregate's block at point `t` is entry `(r, q)` of the aggregate, `r = 10000·t + p`. -/
theorem agg_block3 (c : Dev nD) (t : Fin cfg3.N) (p : Fin 10000) (q : Fin 128) (r : Fin 100000)
    (hr : r.val = 10000 * t.val + p.val) :
    (iblk3 V c 0 t : Vec Ideal S10000x128 .f32) (ix2 p q) = (V c main_v12 : S100000x128.Idx → Elt Ideal .f32) (ix2 r q) := by
  obtain ⟨e0, e1, -⟩ := block_indices3 t
  unfold iblk3
  show V c main_v12 (((cfg3.win 0).blk t).view.emb (ix2 p q)) = V c main_v12 (ix2 r q)
  refine congrArg _ (funext fun a => Fin.ext ?_)
  match a with
  | ⟨0, _⟩ => show win3_0.index t (0 : Fin 2) * 10000 + 1 * p.val = r.val; rw [e0, hr]; omega
  | ⟨1, _⟩ => show win3_0.index t (1 : Fin 2) * 128 + 1 * q.val = q.val; rw [e1]; omega

/-- Entry `(p, 0)` of the norm column's block at point `t` is entry `(r, 0)` of the column, `r = 10000·t + p`. -/
theorem norm_block3 (c : Dev nD) (t : Fin cfg3.N) (p : Fin 10000) (r : Fin 100000)
    (hr : r.val = 10000 * t.val + p.val) :
    (iblk3 V c 1 t : Vec Ideal S10000x1 .f32) (ix2 p (0 : Fin 1)) = (V c main_arg3 : S100000x1.Idx → Elt Ideal .f32) (ix2 r (0 : Fin 1)) := by
  obtain ⟨-, -, e0, e1, -⟩ := block_indices3 t
  unfold iblk3
  show V c main_arg3 (((cfg3.win 1).blk t).view.emb (ix2 p (0 : Fin 1))) = V c main_arg3 (ix2 r (0 : Fin 1))
  refine congrArg _ (funext fun a => Fin.ext ?_)
  match a with
  | ⟨0, _⟩ => show win3_1.index t (0 : Fin 2) * 10000 + 1 * p.val = r.val; rw [e0, hr]; omega
  | ⟨1, _⟩ => show win3_1.index t (1 : Fin 2) * 1 + 1 * 0 = 0; rw [e1]

/-- The bias row's block at every point is the whole row. -/
theorem bias_block3 (c : Dev nD) (t : Fin cfg3.N) (q : Fin 128) :
    (iblk3 V c 2 t : Vec Ideal S1x128 .f32) (ix2 (0 : Fin 1) q) = (V c main_v13 : S1x128.Idx → Elt Ideal .f32) (ix2 (0 : Fin 1) q) := by
  obtain ⟨-, -, -, -, e0, e1, -⟩ := block_indices3 t
  unfold iblk3
  show V c main_v13 (((cfg3.win 2).blk t).view.emb (ix2 (0 : Fin 1) q)) = V c main_v13 (ix2 (0 : Fin 1) q)
  refine congrArg _ (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

/-- What point `t` writes back is block `t` of the gate of the three arrays as the region finds them. -/
theorem flushed_gate3 (c : Dev nD) (t : Fin cfg3.N) :
    (dat3 V c).flushed 3 t = ((cfg3.win 3).blk t).view.read (Elt Ideal)
      (Cert.Gcn.gate (V c main_v12) (V c main_arg3) (Cert.Gcn.rowOf (V c main_v13))) := by
  show (cfg3.win 3).cut (grid3.coords t) ((dat3 V c).after 3 t) = _
  rw [after3_3]
  unfold out3_3
  rw [View.canon_unit_zero zero_offsets]
  simp only [View.ld_unit_zero (S := S10000x128) zero_offsets, View.ld_unit_zero (S := S10000x1) zero_offsets,
    View.ld_unit_zero (S := S1x128) zero_offsets]
  obtain ⟨-, -, -, -, -, -, e0, e1⟩ := block_indices3 t
  have hN : grid3.N = 10 := N_3
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  have hemb : ((cfg3.win 3).blk t).view.emb (ix2 p q) = ix2 (⟨10000 * t.val + p.val, by omega⟩ : Fin 100000) q := by
    funext a; apply Fin.ext
    match a with
    | ⟨0, _⟩ => show win3_3.index t (0 : Fin 2) * 10000 + 1 * p.val = 10000 * t.val + p.val; rw [e0]; omega
    | ⟨1, _⟩ => show win3_3.index t (1 : Fin 2) * 128 + 1 * q.val = q.val; rw [e1]; omega
  show k3_pay1 (iblk3 V c 0 t) (iblk3 V c 1 t) (iblk3 V c 2 t) (ix2 p q)
    = Cert.Gcn.gate (V c main_v12) (V c main_arg3) (Cert.Gcn.rowOf (V c main_v13)) (((cfg3.win 3).blk t).view.emb (ix2 p q))
  rw [hemb, gate_payload_same]
  exact gate_entry (V c main_v12) (V c main_arg3) (V c main_v13) (iblk3 V c 0 t) (iblk3 V c 1 t) (iblk3 V c 2 t) p q _
    (agg_block3 V c t p q _ rfl) (norm_block3 V c t p _ rfl) (bias_block3 V c t q)

/-- An index of the result array is in point `t`'s block iff each coordinate is in the block's range on its axis. -/
theorem mem_block3 (t : Fin cfg3.N) (i : S100000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v14).slice (win3_3.rect t)).set ↔ _
  rw [View.set_slice_whole, Rect.mem_set_unit]
  exact Iff.rfl

/-- Every entry of the result array is written back: row `r` lies in the block of point `r / 10000`. -/
theorem cover3 (i : S100000x128.Idx) :
    ∃ t : Fin cfg3.N, (cfg3.win 3).flush t = true ∧ i ∈ ((cfg3.win 3).blk t).view.set := by
  have hN : grid3.N = 10 := N_3
  have hi0 : (i 0).val < 100000 := (i 0).isLt
  have hi1 : (i 1).val < 128 := (i 1).isLt
  have hlt : (i 0).val / 10000 < grid3.N := by rw [hN]; omega
  obtain ⟨-, -, -, -, -, -, e0, e1⟩ := block_indices3 ⟨(i 0).val / 10000, hlt⟩
  refine ⟨⟨(i 0).val / 10000, hlt⟩, flush3_3 _, ?_⟩
  rw [mem_block3]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win3_3.index ⟨(i 0).val / 10000, hlt⟩ (1 : Fin 2) * 128 ≤ (i 1).val
      ∧ (i 1).val < win3_3.index ⟨(i 0).val / 10000, hlt⟩ (1 : Fin 2) * 128 + 128
    rw [e1]; omega

/-- Region 3's result array: the second layer's gate. -/
theorem final3 (c : Dev nD) :
    (dat3 V c).arrAt 3 cfg3.N = Cert.Gcn.gate (V c main_v12) (V c main_arg3) (Cert.Gcn.rowOf (V c main_v13)) := by
  exact (dat3 V c).arrAt_eq_of_cover 3 _ (fun t _ => flushed_gate3 V c t) cover3

end Cert.KernelIdeal.Hand

end
-- ==== Proof.KDefs.lean ====
/-
  The host operations between the kernel program's regions, as functions of the buffers they read. `takeN` / `takeE`:
  jnp.take with its fill — the index wrapped once, the rows gathered, and a row replaced by the fill word wherever the
  wrapped index falls outside [0, 99999] (`inTableN` / `inTableE` is that test, row by row). `segSumK`: the edge rows
  summed into their destination rows from zero. -/
import proofs.«418681_j30966714204810_1_alg».proof.Proof.Gen.KernelIdeal.Launch
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-- A node index wrapped once (100000 added where it is negative), as the [100000, 1] column the gather takes. -/
def wrapN (idx : IVec S100000 32) : IVec S100000x1 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 100000#32))) idx)

/-- An edge's source index wrapped once, as the [600000, 1] column the gather takes. -/
def wrapE (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 100000#32))) idx)

/-- Row by row: is the wrapped node index inside the table, `0 ≤ j ≤ 99999`? -/
def inTableN (j : IVec S100000x1 32) : IVec S100000 1 :=
  Host.reduce IntOp.andi
    (andi (cmpi .sge j (broadcastInDim S100000x1 ![] bcast_S_S100000x1 (constantI S_ 32 0#32)))
      (cmpi .sle j (broadcastInDim S100000x1 ![0, 1] bcast_S1x1_S100000x1_0_1 (broadcastInDim S1x1 ![1] bcast_S1_S1x1_1 (constantI S1 32 99999#32)))))
    (constantI S_ 1 1#1) reducesTo_S100000x1_S100000_d1 h_S_

/-- Row by row: is the wrapped source index inside the table? -/
def inTableE (j : IVec S600000x1 32) : IVec S600000 1 :=
  Host.reduce IntOp.andi
    (andi (cmpi .sge j (broadcastInDim S600000x1 ![] bcast_S_S600000x1 (constantI S_ 32 0#32)))
      (cmpi .sle j (broadcastInDim S600000x1 ![0, 1] bcast_S1x1_S600000x1_0_1 (broadcastInDim S1x1 ![1] bcast_S1_S1x1_1 (constantI S1 32 99999#32)))))
    (constantI S_ 1 1#1) reducesTo_S600000x1_S600000_d1 h_S_

/-- The table's rows at the node ids, a row outside the table replaced by the fill word. -/
def takeN (tbl : FVec Ideal S100000x128 .f32) (idx : IVec S100000 32) : FVec Ideal S100000x128 .f32 :=
  select (broadcastInDim S100000x128 ![0] bcast_S100000_S100000x128_0 (inTableN (wrapN idx)))
    (Host.gather gather_S100000x128_S100000x1_S100000x128_1_0_n_n_0_1_1128 tbl (wrapN idx))
    (broadcastInDim S100000x128 ![] bcast_S_S100000x128 (constant S_ .f32 0x7FC00000#32))

/-- The rows of `x` at the edges' sources, a row outside the table replaced by the fill word. -/
def takeE (x : FVec Ideal S100000x128 .f32) (idx : IVec S600000 32) : FVec Ideal S600000x128 .f32 :=
  select (broadcastInDim S600000x128 ![0] bcast_S600000_S600000x128_0 (inTableE (wrapE idx)))
    (Host.gather gather_S100000x128_S600000x1_S600000x128_1_0_n_n_0_1_1128 x (wrapE idx))
    (broadcastInDim S600000x128 ![] bcast_S_S600000x128 (constant S_ .f32 0x7FC00000#32))

/-- The edge rows summed into their destination rows, from zero. -/
def segSumK (dst : IVec S600000 32) (g : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst) g

end Cert.KernelIdeal.Hand

end
-- ==== Proof.KHost.lean ====
/-
  Each stretch of host operations of the kernel program, run from ANY buffer contents, leaves its result buffer at the
  stretch's function of the buffers it reads: the take with its fill, the segment sum, the bias laid out as a row.
-/
import proofs.«418681_j30966714204810_1_alg».proof.Proof.KDefs

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (Wv : Valuation τ sig (Elt Ideal))

set_option maxHeartbeats 4000000 in
/-- The stretch before region 0 leaves the embedding rows at the node ids. -/
theorem host0_v0 : StableHlo.after (hostOps0 (F := Ideal)) Wv (Proc.devRef .tc main_v0)
    = takeN (Wv (Proc.devRef .tc main_arg4)) (Wv (Proc.devRef .tc main_arg0)) := by
  generalize hX : takeN (Wv (Proc.devRef .tc main_arg4)) (Wv (Proc.devRef .tc main_arg0)) = X
  simp only [hostOps0, hostOps1, hostOps3, main_call0_call0, main_call1_call0, main_call2_call0, TRef.nullary, TRef.unary, TRef.binary,
    TRef.ternary, TRef.toBuf, TRef.ofBuf, cast_eq]
  after_results_simp
  subst hX
  rfl

set_option maxHeartbeats 4000000 in
/-- The first stretch after region 0 leaves the rows of region 0's result at the edges' sources. -/
theorem host1_v2 : StableHlo.after (hostOps1 (F := Ideal)) Wv (Proc.devRef .tc main_v2)
    = takeE (Wv (Proc.devRef .tc main_v1)) (Wv (Proc.devRef .tc main_arg1)) := by
  generalize hX : takeE (Wv (Proc.devRef .tc main_v1)) (Wv (Proc.devRef .tc main_arg1)) = X
  simp only [hostOps0, hostOps1, hostOps3, main_call0_call0, main_call1_call0, main_call2_call0, TRef.nullary, TRef.unary, TRef.binary,
    TRef.ternary, TRef.toBuf, TRef.ofBuf, cast_eq]
  after_results_simp
  subst hX
  rfl

set_option maxHeartbeats 4000000 in
/-- The second stretch sums them into their destinations … -/
theorem host11_v5 : StableHlo.after (hostOps1_1 (F := Ideal)) Wv (Proc.devRef .tc main_v5)
    = segSumK (Wv (Proc.devRef .tc main_arg2)) (Wv (Proc.devRef .tc main_v2)) := by
  generalize hX : segSumK (Wv (Proc.devRef .tc main_arg2)) (Wv (Proc.devRef .tc main_v2)) = X
  after_results_simp
  subst hX
  rfl

set_option maxHeartbeats 4000000 in
/-- … and lays the first bias out as a [1, 128] row. -/
theorem host11_v6 : StableHlo.after (hostOps1_1 (F := Ideal)) Wv (Proc.devRef .tc main_v6)
    = shapeCast S1x128 (Wv (Proc.devRef .tc main_arg6) : FVec Ideal S128 .f32) shapeCasts_S128_S1x128 := by
  generalize hX : shapeCast S1x128 (Wv (Proc.devRef .tc main_arg6) : FVec Ideal S128 .f32) shapeCasts_S128_S1x128 = X
  after_results_simp
  subst hX
  rfl

set_option maxHeartbeats 4000000 in
/-- The first stretch after region 2 leaves the rows of region 2's result at the edges' sources. -/
theorem host3_v9 : StableHlo.after (hostOps3 (F := Ideal)) Wv (Proc.devRef .tc main_v9)
    = takeE (Wv (Proc.devRef .tc main_v8)) (Wv (Proc.devRef .tc main_arg1)) := by
  generalize hX : takeE (Wv (Proc.devRef .tc main_v8)) (Wv (Proc.devRef .tc main_arg1)) = X
  simp only [hostOps0, hostOps1, hostOps3, main_call0_call0, main_call1_call0, main_call2_call0, TRef.nullary, TRef.unary, TRef.binary,
    TRef.ternary, TRef.toBuf, TRef.ofBuf, cast_eq]
  after_results_simp
  subst hX
  rfl

set_option maxHeartbeats 4000000 in
/-- The second stretch sums them into their destinations … -/
theorem host31_v12 : StableHlo.after (hostOps3_1 (F := Ideal)) Wv (Proc.devRef .tc main_v12)
    = segSumK (Wv (Proc.devRef .tc main_arg2)) (Wv (Proc.devRef .tc main_v9)) := by
  generalize hX : segSumK (Wv (Proc.devRef .tc main_arg2)) (Wv (Proc.devRef .tc main_v9)) = X
  after_results_simp
  subst hX
  rfl

set_option maxHeartbeats 4000000 in
/-- … and lays the second bias out as a [1, 128] row. -/
theorem host31_v13 : StableHlo.after (hostOps3_1 (F := Ideal)) Wv (Proc.devRef .tc main_v13)
    = shapeCast S1x128 (Wv (Proc.devRef .tc main_arg8) : FVec Ideal S128 .f32) shapeCasts_S128_S1x128 := by
  generalize hX : shapeCast S1x128 (Wv (Proc.devRef .tc main_arg8) : FVec Ideal S128 .f32) shapeCasts_S128_S1x128 = X
  after_results_simp
  subst hX
  rfl

end Cert.KernelIdeal.Hand

end
-- ==== Proof.KArgs.lean ====
/-
  The argument arrays at the segment boundaries of the kernel program's run: no host operation and no region writes an
  argument (a region reads it through an input window, whose array it leaves as it found it, or does not touch it), so
  at every boundary the fold of contents, read at an argument's buffer, walks back to the launch memory.
-/
import proofs.«418681_j30966714204810_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

-- A host stretch leaves a buffer as it found it when none of its operations writes that buffer: the stretch's list of
-- operations is opened and every operation's written buffer is told apart from the buffer asked about.
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Argument 3 is as launched at boundary 1: nothing before it writes that buffer. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps hostOps0
    _ = m ((c : Thread nD τ).loc main_arg3) := rfl

/-- Argument 5 is as launched at boundary 1: nothing before it writes that buffer. -/
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by host_keeps hostOps0
    _ = m ((c : Thread nD τ).loc main_arg5) := rfl

/-- Argument 1 is as launched at boundary 2: nothing before it writes that buffer. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

/-- Argument 2 is as launched at boundary 3: nothing before it writes that buffer. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- Argument 6 is as launched at boundary 3: nothing before it writes that buffer. -/
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- Argument 3 is as launched at boundary 4: nothing before it writes that buffer. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by host_keeps hostOps1_1
    _ = W2 m ρ c (Proc.devRef .tc main_arg3) := by host_keeps hostOps1
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := by host_keeps hostOps0
    _ = m ((c : Thread nD τ).loc main_arg3) := rfl

/-- Argument 3 is as launched at boundary 5: nothing before it writes that buffer. -/
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 1).trans (((dat1 (V4 m ρ) c).arrAt_in 1 rfl _).trans (A_eq1 (V4 m ρ) c 1))
    _ = m ((c : Thread nD τ).loc main_arg3) := W4_arg3 m ρ c

/-- Argument 7 is as launched at boundary 5: nothing before it writes that buffer. -/
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := by host_keeps hostOps1_1
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

/-- Argument 1 is as launched at boundary 6: nothing before it writes that buffer. -/
theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := by host_keeps hostOps1_1
    _ = W2 m ρ c (Proc.devRef .tc main_arg1) := by host_keeps hostOps1
    _ = m ((c : Thread nD τ).loc main_arg1) := W2_arg1 m ρ c

/-- Argument 2 is as launched at boundary 7: nothing before it writes that buffer. -/
theorem W7_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by host_keeps hostOps3
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := by host_keeps hostOps1_1
    _ = m ((c : Thread nD τ).loc main_arg2) := W3_arg2 m ρ c

/-- Argument 8 is as launched at boundary 7: nothing before it writes that buffer. -/
theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := by host_keeps hostOps3
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := by host_keeps hostOps1_1
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- Argument 3 is as launched at boundary 8: nothing before it writes that buffer. -/
theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := by host_keeps hostOps3_1
    _ = W6 m ρ c (Proc.devRef .tc main_arg3) := by host_keeps hostOps3
    _ = W5 m ρ c (Proc.devRef .tc main_arg3) := (W6_arr m ρ c 2).trans (((dat2 (V5 m ρ) c).arrAt_in 2 rfl _).trans (A_eq2 (V5 m ρ) c 2))
    _ = m ((c : Thread nD τ).loc main_arg3) := W5_arg3 m ρ c

end Cert.KernelIdeal.Hand

end
-- ==== Proof.KValue.lean ====
/-
  The kernel program's result array, read back through its run: the last region's array is the gate of the second
  layer, whose aggregate is the segment sum of the taken rows of the second projection, whose input is the first
  layer's gate, and so on back to the embedding rows — two layers `layerK` over `takeN` of the table, every argument
  read at its launch contents.
-/
import proofs.«418681_j30966714204810_1_alg».proof.Proof.KProj
import proofs.«418681_j30966714204810_1_alg».proof.Proof.KGate
import proofs.«418681_j30966714204810_1_alg».proof.Proof.KHost
import proofs.«418681_j30966714204810_1_alg».proof.Proof.KArgs
import proofs.«418681_j30966714204810_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

/-- A vector of 128 laid out as a [1, 128] row and read back as a vector is itself. -/
theorem rowOf_row (b : FVec Ideal S128 .f32) : Cert.Gcn.rowOf (shapeCast S1x128 b shapeCasts_S128_S1x128) = b := by
  funext q
  unfold Cert.Gcn.rowOf
  refine (shapeCast_addUnit_apply ![128] b shapeCasts_S128_S1x128 _).trans (congrArg b ?_)
  funext a
  match a with
  | ⟨0, _⟩ => rfl

/-- One layer of the kernel program: project, take the rows at the edges' sources (with the fill), sum them into their
    destinations, gate. -/
def layerK (src dst : IVec S600000 32) (h : FVec Ideal S100000x128 .f32) (w : FVec Ideal S128x128 .f32) (b : FVec Ideal S128 .f32)
    (n : FVec Ideal S100000x1 .f32) : FVec Ideal S100000x128 .f32 :=
  Cert.Gcn.gate (segSumK dst (takeE (Cert.Gcn.proj h w n) src)) n b

variable (m : (ℓ : Loc nD τ sig) → Buf (Elt Ideal) ℓ) (ρ : Dev nD → PrngReg)

/-- Region 0's result array at its exit: the projection of the taken embedding rows. -/
theorem proj1 (c : Dev nD) : W2 m ρ c (Proc.devRef .tc main_v1)
    = Cert.Gcn.proj (takeN (m ((c : Thread nD τ).loc main_arg4)) (m ((c : Thread nD τ).loc main_arg0))) (m ((c : Thread nD τ).loc main_arg5)) (m ((c : Thread nD τ).loc main_arg3)) := by
  rw [show W2 m ρ c (Proc.devRef .tc main_v1) = (dat0 (V1 m ρ) c).arrAt 3 cfg0.N from W2_arr m ρ c 3, final0 (V1 m ρ) c]
  rw [show V1 m ρ c main_v0 = takeN (m ((c : Thread nD τ).loc main_arg4)) (m ((c : Thread nD τ).loc main_arg0)) from host0_v0 (W0 m ρ c),
    show V1 m ρ c main_arg5 = (m ((c : Thread nD τ).loc main_arg5)) from W1_arg5 m ρ c,
    show V1 m ρ c main_arg3 = (m ((c : Thread nD τ).loc main_arg3)) from W1_arg3 m ρ c]

/-- Region 1's result array at its exit: the first layer. -/
theorem layer1 (c : Dev nD) : W5 m ρ c (Proc.devRef .tc main_v7)
    = layerK (m ((c : Thread nD τ).loc main_arg1)) (m ((c : Thread nD τ).loc main_arg2)) (takeN (m ((c : Thread nD τ).loc main_arg4)) (m ((c : Thread nD τ).loc main_arg0))) (m ((c : Thread nD τ).loc main_arg5)) (m ((c : Thread nD τ).loc main_arg6)) (m ((c : Thread nD τ).loc main_arg3)) := by
  unfold layerK
  rw [show W5 m ρ c (Proc.devRef .tc main_v7) = (dat1 (V4 m ρ) c).arrAt 3 cfg1.N from W5_arr m ρ c 3, final1 (V4 m ρ) c]
  rw [show V4 m ρ c main_v5 = segSumK (W3 m ρ c (Proc.devRef .tc main_arg2)) (W3 m ρ c (Proc.devRef .tc main_v2)) from host11_v5 (W3 m ρ c),
    show V4 m ρ c main_v6 = shapeCast S1x128 (W3 m ρ c (Proc.devRef .tc main_arg6) : FVec Ideal S128 .f32) shapeCasts_S128_S1x128 from host11_v6 (W3 m ρ c),
    show V4 m ρ c main_arg3 = (m ((c : Thread nD τ).loc main_arg3)) from W4_arg3 m ρ c,
    rowOf_row, W3_arg2 m ρ c, W3_arg6 m ρ c,
    show W3 m ρ c (Proc.devRef .tc main_v2) = takeE (W2 m ρ c (Proc.devRef .tc main_v1)) (W2 m ρ c (Proc.devRef .tc main_arg1)) from host1_v2 (W2 m ρ c),
    W2_arg1 m ρ c, proj1 m ρ c]

/-- Region 2's result array at its exit: the projection of the first layer. -/
theorem proj2 (c : Dev nD) : W6 m ρ c (Proc.devRef .tc main_v8)
    = Cert.Gcn.proj (W5 m ρ c (Proc.devRef .tc main_v7)) (m ((c : Thread nD τ).loc main_arg7)) (m ((c : Thread nD τ).loc main_arg3)) := by
  rw [show W6 m ρ c (Proc.devRef .tc main_v8) = (dat2 (V5 m ρ) c).arrAt 3 cfg2.N from W6_arr m ρ c 3, final2 (V5 m ρ) c]
  rw [show V5 m ρ c main_arg7 = (m ((c : Thread nD τ).loc main_arg7)) from W5_arg7 m ρ c,
    show V5 m ρ c main_arg3 = (m ((c : Thread nD τ).loc main_arg3)) from W5_arg3 m ρ c]

/-- Region 3's result array at its exit: the second layer over region 1's result. -/
theorem layer2 (c : Dev nD) : W9 m ρ c (Proc.devRef .tc main_v14)
    = layerK (m ((c : Thread nD τ).loc main_arg1)) (m ((c : Thread nD τ).loc main_arg2)) (W5 m ρ c (Proc.devRef .tc main_v7)) (m ((c : Thread nD τ).loc main_arg7)) (m ((c : Thread nD τ).loc main_arg8)) (m ((c : Thread nD τ).loc main_arg3)) := by
  unfold layerK
  rw [show W9 m ρ c (Proc.devRef .tc main_v14) = (dat3 (V8 m ρ) c).arrAt 3 cfg3.N from W9_arr m ρ c 3, final3 (V8 m ρ) c]
  rw [show V8 m ρ c main_v12 = segSumK (W7 m ρ c (Proc.devRef .tc main_arg2)) (W7 m ρ c (Proc.devRef .tc main_v9)) from host31_v12 (W7 m ρ c),
    show V8 m ρ c main_v13 = shapeCast S1x128 (W7 m ρ c (Proc.devRef .tc main_arg8) : FVec Ideal S128 .f32) shapeCasts_S128_S1x128 from host31_v13 (W7 m ρ c),
    show V8 m ρ c main_arg3 = (m ((c : Thread nD τ).loc main_arg3)) from W8_arg3 m ρ c,
    rowOf_row, W7_arg2 m ρ c, W7_arg8 m ρ c,
    show W7 m ρ c (Proc.devRef .tc main_v9) = takeE (W6 m ρ c (Proc.devRef .tc main_v8)) (W6 m ρ c (Proc.devRef .tc main_arg1)) from host3_v9 (W6 m ρ c),
    W6_arg1 m ρ c, proj2 m ρ c]

/-- The result array after the run: two layers over the taken embedding rows. -/
theorem result_eq (c : Dev nD) : W9 m ρ c (Proc.devRef .tc main_v14)
    = layerK (m ((c : Thread nD τ).loc main_arg1)) (m ((c : Thread nD τ).loc main_arg2))
        (layerK (m ((c : Thread nD τ).loc main_arg1)) (m ((c : Thread nD τ).loc main_arg2)) (takeN (m ((c : Thread nD τ).loc main_arg4)) (m ((c : Thread nD τ).loc main_arg0))) (m ((c : Thread nD τ).loc main_arg5)) (m ((c : Thread nD τ).loc main_arg6)) (m ((c : Thread nD τ).loc main_arg3)))
        (m ((c : Thread nD τ).loc main_arg7)) (m ((c : Thread nD τ).loc main_arg8)) (m ((c : Thread nD τ).loc main_arg3)) := by
  rw [layer2 m ρ c, layer1 m ρ c]

end Cert.KernelIdeal.Hand

end
-- ==== Proof.Bits.lean ====
/-
  Two facts about words and masks, over no program. A signed 32-bit index that lies in [-100000, 100000), wrapped once
  (100000 added where it is negative), lies in [0, 99999]: the wrap jnp applies to an index before a gather, and the
  bound the gather's fill mask tests. And a reduction by `and` of a mask that is 1 everywhere, from the initial value
  1, is 1 everywhere.
-/
import Idealize.ShloMosaic.PureOps
import Idealize.ShloMosaic.Lib.ReduceAll
import Idealize.ShloMosaic.Lib.StableHlo.Predicate

noncomputable section

namespace Cert.Gcn.Bits

open Idealize.ShloMosaic

/-- A signed `≥` of 32-bit words that came out 1 is the inequality of their signed values. -/
theorem sge_iff (a b : BitVec 32) : IntOp.cmpi .sge a b = 1#1 ↔ b.toInt ≤ a.toInt := by
  unfold IntOp.cmpi
  simp only [StableHlo.Predicate.ofBool_eq_one_iff, BitVec.sle, decide_eq_true_eq]

/-- A signed `≤` of 32-bit words that came out 1 is the inequality of their signed values. -/
theorem sle_iff (a b : BitVec 32) : IntOp.cmpi .sle a b = 1#1 ↔ a.toInt ≤ b.toInt := by
  unfold IntOp.cmpi
  simp only [StableHlo.Predicate.ofBool_eq_one_iff, BitVec.sle, decide_eq_true_eq]

/-- A signed `<` of 32-bit words that came out 1 is the inequality of their signed values. -/
theorem slt_iff (a b : BitVec 32) : IntOp.cmpi .slt a b = 1#1 ↔ a.toInt < b.toInt := by
  unfold IntOp.cmpi
  simp only [StableHlo.Predicate.ofBool_eq_one_iff, BitVec.slt, decide_eq_true_eq]

/-- The wrapped index is inside the table: both comparisons of the fill mask hold. -/
theorem wrap_in_table (x : BitVec 32) (hlo : IntOp.cmpi .sge x 4294867296#32 = 1#1) (hhi : IntOp.cmpi .slt x 100000#32 = 1#1) :
    IntOp.cmpi .sge (Scalar.select (IntOp.cmpi .slt x 0#32) (IntOp.addi x 100000#32) x) 0#32 = 1#1
    ∧ IntOp.cmpi .sle (Scalar.select (IntOp.cmpi .slt x 0#32) (IntOp.addi x 100000#32) x) 99999#32 = 1#1 := by
  have e0 : (0#32 : BitVec 32).toInt = 0 := by decide
  have elo : (4294867296#32 : BitVec 32).toInt = -100000 := by decide
  have ehi : (100000#32 : BitVec 32).toInt = 100000 := by decide
  have e9 : (99999#32 : BitVec 32).toInt = 99999 := by decide
  have ec : (100000#32 : BitVec 32).toNat = 100000 := by decide
  rw [sge_iff, elo] at hlo
  rw [slt_iff, ehi] at hhi
  rw [sge_iff, sle_iff, e0, e9]
  -- the signed value of x in terms of its unsigned value
  have hx := BitVec.toInt_eq_toNat_cond x
  have hxn := x.isLt
  by_cases hneg : x.toInt < 0
  · -- x negative: the wrapped word is x + 100000, whose unsigned value is (x.toNat + 100000) mod 2³² = x.toInt + 100000
    have hsel : Scalar.select (IntOp.cmpi .slt x 0#32) (IntOp.addi x 100000#32) x = IntOp.addi x 100000#32 :=
      if_pos ((slt_iff x 0#32).2 (by rw [e0]; exact hneg))
    rw [hsel]
    have hs := BitVec.toInt_eq_toNat_cond (IntOp.addi x 100000#32)
    have hn : (IntOp.addi x 100000#32).toNat = (x.toNat + 100000) % 2 ^ 32 := by
      unfold IntOp.addi; rw [BitVec.toNat_add, ec]
    rw [hn] at hs
    split at hx <;> split at hs <;> omega
  · -- x non-negative: the word is kept
    have hsel : Scalar.select (IntOp.cmpi .slt x 0#32) (IntOp.addi x 100000#32) x = x :=
      if_neg (fun h => hneg (by have h' := (slt_iff x 0#32).1 h; rw [e0] at h'; exact h'))
    rw [hsel]
    omega

/-- A left fold by `and` over `i1` words that are all 1, started at 1, is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons.2 (Or.inl rfl)), show IntOp.andi (1#1 : BitVec 1) 1#1 = 1#1 from by decide]
    exact foldl_andi_ones f l (fun n hn => h n (List.mem_cons.2 (Or.inr hn)))

/-- A reduction by `and` of an all-ones mask from an all-ones initial value is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl, hinit]
  exact foldl_andi_ones x _ (fun n _ => hx n)

end Cert.Gcn.Bits

end
-- ==== Proof.KMask.lean ====
/-
  Where every index is in [-100000, 100000), the wrapped index is inside the table at every row, so the fill mask of
  jnp.take is 1 everywhere and the take is the plain gather at the wrapped index: no row is replaced by the fill word.
-/
import proofs.«418681_j30966714204810_1_alg».proof.Proof.KDefs
import proofs.«418681_j30966714204810_1_alg».proof.Proof.Bits
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem

/-- The wrap and the table test at one point: where the word at `k` is in [-100000, 100000), the wrapped word passes both
    comparisons of the fill mask. (Read through the pointwise operations and the scalar broadcasts by unfolding.) -/
theorem wrap_point {v : Shape} (idx : IVec v 32) (hb0 : (⟨0, ![]⟩ : Shape).BroadcastsInDim v ![])
    (h : ∀ i, IntOp.cmpi .sge (idx i) 4294867296#32 = 1#1 ∧ IntOp.cmpi .slt (idx i) 100000#32 = 1#1) (k : v.Idx) :
    IntOp.andi
      (IntOp.cmpi .sge
        (select (cmpi .slt idx (broadcastInDim v ![] hb0 (constantI ⟨0, ![]⟩ 32 0#32)))
          (addi idx (broadcastInDim v ![] hb0 (constantI ⟨0, ![]⟩ 32 100000#32))) idx k) 0#32)
      (IntOp.cmpi .sle
        (select (cmpi .slt idx (broadcastInDim v ![] hb0 (constantI ⟨0, ![]⟩ 32 0#32)))
          (addi idx (broadcastInDim v ![] hb0 (constantI ⟨0, ![]⟩ 32 100000#32))) idx k) 99999#32) = 1#1 :=
  IntOp.andi_eq_one.2 (Cert.Gcn.Bits.wrap_in_table (idx k) (h k).1 (h k).2)

/-- The fill mask of a take over a table of 100000 rows, at any number `n` of indices: where every index is in
    [-100000, 100000), the row-by-row test of the wrapped column is 1 at every row. -/
theorem inTable_ones {n : Nat} (idx : IVec ⟨1, ![n]⟩ 32)
    (hb0 : (⟨0, ![]⟩ : Shape).BroadcastsInDim ⟨1, ![n]⟩ ![])
    (hbc : (⟨1, ![n]⟩ : Shape).BroadcastsInDim ⟨2, ![n, 1]⟩ ![0])
    (hbs : (⟨0, ![]⟩ : Shape).BroadcastsInDim ⟨2, ![n, 1]⟩ ![])
    (hb11 : (⟨2, ![1, 1]⟩ : Shape).BroadcastsInDim ⟨2, ![n, 1]⟩ ![0, 1])
    (hb1 : (⟨1, ![1]⟩ : Shape).BroadcastsInDim ⟨2, ![1, 1]⟩ ![1])
    (hr : (⟨2, ![n, 1]⟩ : Shape).ReducesTo [1] ⟨1, ![n]⟩) (h0 : 0 < (⟨0, ![]⟩ : Shape).numel)
    (h : ∀ i, IntOp.cmpi .sge (idx i) 4294867296#32 = 1#1 ∧ IntOp.cmpi .slt (idx i) 100000#32 = 1#1) :
    Host.reduce IntOp.andi
      (andi
        (cmpi .sge
          (broadcastInDim ⟨2, ![n, 1]⟩ ![0] hbc
            (select (cmpi .slt idx (broadcastInDim ⟨1, ![n]⟩ ![] hb0 (constantI ⟨0, ![]⟩ 32 0#32)))
              (addi idx (broadcastInDim ⟨1, ![n]⟩ ![] hb0 (constantI ⟨0, ![]⟩ 32 100000#32))) idx))
          (broadcastInDim ⟨2, ![n, 1]⟩ ![] hbs (constantI ⟨0, ![]⟩ 32 0#32)))
        (cmpi .sle
          (broadcastInDim ⟨2, ![n, 1]⟩ ![0] hbc
            (select (cmpi .slt idx (broadcastInDim ⟨1, ![n]⟩ ![] hb0 (constantI ⟨0, ![]⟩ 32 0#32)))
              (addi idx (broadcastInDim ⟨1, ![n]⟩ ![] hb0 (constantI ⟨0, ![]⟩ 32 100000#32))) idx))
          (broadcastInDim ⟨2, ![n, 1]⟩ ![0, 1] hb11 (broadcastInDim ⟨2, ![1, 1]⟩ ![1] hb1 (constantI ⟨1, ![1]⟩ 32 99999#32)))))
      (constantI ⟨0, ![]⟩ 1 1#1) hr h0 = fun _ => 1#1 :=
  Cert.Gcn.Bits.reduce_andi_ones _ _ hr h0 (fun _ => wrap_point idx hb0 h _) (fun _ => rfl)

/-- A select on the broadcast of an all-ones mask keeps its first operand everywhere. -/
theorem select_ones {α : Type} {v r : Shape} {dims : Fin v.rank → Fin r.rank} (hb : v.BroadcastsInDim r dims) (mask : IVec v 1)
    (hm : mask = fun _ => 1#1) (g f : r.Idx → α) : select (broadcastInDim r dims hb mask) g f = g := by
  subst hm
  funext i
  exact ValueIdx.select_one (g i) (f i)

/-- In range, the node-id take is the gather at the wrapped index. -/
theorem takeN_eq_gather (tbl : FVec Ideal S100000x128 .f32) (idx : IVec S100000 32)
    (h : ∀ i, IntOp.cmpi .sge (idx i) 4294867296#32 = 1#1 ∧ IntOp.cmpi .slt (idx i) 100000#32 = 1#1) :
    takeN tbl idx = Host.gather gather_S100000x128_S100000x1_S100000x128_1_0_n_n_0_1_1128 tbl (wrapN idx) := by
  have hm : inTableN (wrapN idx) = fun _ => 1#1 := by
    unfold inTableN wrapN
    exact inTable_ones (n := 100000) idx bcast_S_S100000 bcast_S100000_S100000x1_0 bcast_S_S100000x1 bcast_S1x1_S100000x1_0_1
      bcast_S1_S1x1_1 reducesTo_S100000x1_S100000_d1 h_S_ h
  unfold takeN
  exact select_ones bcast_S100000_S100000x128_0 (inTableN (wrapN idx)) hm _ _

/-- In range, the source take is the gather at the wrapped index. -/
theorem takeE_eq_gather (x : FVec Ideal S100000x128 .f32) (idx : IVec S600000 32)
    (h : ∀ i, IntOp.cmpi .sge (idx i) 4294867296#32 = 1#1 ∧ IntOp.cmpi .slt (idx i) 100000#32 = 1#1) :
    takeE x idx = Host.gather gather_S100000x128_S600000x1_S600000x128_1_0_n_n_0_1_1128 x (wrapE idx) := by
  have hm : inTableE (wrapE idx) = fun _ => 1#1 := by
    unfold inTableE wrapE
    exact inTable_ones (n := 600000) idx bcast_S_S600000 bcast_S600000_S600000x1_0 bcast_S_S600000x1 bcast_S1x1_S600000x1_0_1
      bcast_S1_S1x1_1 reducesTo_S600000x1_S600000_d1 h_S_ h
  unfold takeE
  exact select_ones bcast_S600000_S600000x128_0 (inTableE (wrapE idx)) hm _ _

end Cert.KernelIdeal.Hand

end
-- ==== Proof.RefStages.lean ====
/-
  The reference read as two layers. Its run's result term is, operation for operation, the composition
  embedding rows → layer → layer, a layer being: the dense product with the weight matrix scaled by the norm column,
  the rows the (wrapped) source indices name, their sum into the destination rows, the norm again, the bias, and the
  leaky rectifier. The dense product and the gate, index by index, are `Cert.Gcn.proj` and `Cert.Gcn.gate`.
-/
import proofs.«418681_j30966714204810_1_alg».proof.Proof.Gen.ReferenceIdeal.Run
import proofs.«418681_j30966714204810_1_alg».proof.Proof.Gen.ReferenceIdeal.Read
import proofs.«418681_j30966714204810_1_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

/-- A node index wrapped once (100000 added where it is negative), as the [100000, 1] column the gather takes. -/
def wrapN (idx : IVec S100000 32) : IVec S100000x1 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 100000#32))) idx)

/-- An edge's source index wrapped once, as the [600000, 1] column the gather takes. -/
def wrapE (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 100000#32))) idx)

/-- The embedding rows the node ids name. -/
def embedRows (tbl : FVec Ideal S100000x128 .f32) (idx : IVec S100000 32) : FVec Ideal S100000x128 .f32 :=
  Host.gather gather_S100000x128_S100000x1_S100000x128_1_0_n_n_0_1_1128 tbl (wrapN idx)

/-- The rows of `x` the edges' sources name. -/
def edgeRows (src : IVec S600000 32) (x : FVec Ideal S100000x128 .f32) : FVec Ideal S600000x128 .f32 :=
  Host.gather gather_S100000x128_S600000x1_S600000x128_1_0_n_n_0_1_1128 x (wrapE src)

/-- The edge rows summed into their destination rows, from zero. -/
def segSum (dst : IVec S600000 32) (g : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst) g

/-- The dense product scaled by the norm column, as the reference writes it. -/
def projR (h : FVec Ideal S100000x128 .f32) (w : FVec Ideal S128x128 .f32) (n : FVec Ideal S100000x1 .f32) : FVec Ideal S100000x128 .f32 :=
  mulf (Host.dotGeneral dot_S100000x128_S128x128_S100000x128_1_0_0_1_n_n none h w)
    (broadcastInDim S100000x128 ![0, 1] bcast_S100000x1_S100000x128_0_1 n)

/-- The norm, the bias and the leaky rectifier, as the reference writes them. -/
def gateR (agg : FVec Ideal S100000x128 .f32) (n : FVec Ideal S100000x1 .f32) (b : FVec Ideal S128 .f32) : FVec Ideal S100000x128 .f32 :=
  select
    (cmpf .ogt
      (addf (mulf agg (broadcastInDim S100000x128 ![0, 1] bcast_S100000x1_S100000x128_0_1 n))
        (broadcastInDim S100000x128 ![0, 1] bcast_S1x128_S100000x128_0_1 (broadcastInDim S1x128 ![1] bcast_S128_S1x128_1 b)))
      (broadcastInDim S100000x128 ![] bcast_S_S100000x128 (constant S_ .f32 0x00000000#32)))
    (addf (mulf agg (broadcastInDim S100000x128 ![0, 1] bcast_S100000x1_S100000x128_0_1 n))
      (broadcastInDim S100000x128 ![0, 1] bcast_S1x128_S100000x128_0_1 (broadcastInDim S1x128 ![1] bcast_S128_S1x128_1 b)))
    (mulf (broadcastInDim S100000x128 ![] bcast_S_S100000x128 (constant S_ .f32 0x3E4CCCCD#32))
      (addf (mulf agg (broadcastInDim S100000x128 ![0, 1] bcast_S100000x1_S100000x128_0_1 n))
        (broadcastInDim S100000x128 ![0, 1] bcast_S1x128_S100000x128_0_1 (broadcastInDim S1x128 ![1] bcast_S128_S1x128_1 b))))

/-- One layer of the reference. -/
def layerR (src dst : IVec S600000 32) (h : FVec Ideal S100000x128 .f32) (w : FVec Ideal S128x128 .f32) (b : FVec Ideal S128 .f32)
    (n : FVec Ideal S100000x1 .f32) : FVec Ideal S100000x128 .f32 :=
  gateR (segSum dst (edgeRows src (projR h w n))) n b

set_option maxRecDepth 8192 in
/-- The run's result term is the two layers over the embedding rows. -/
theorem res_eq (m : (ℓ : Loc nD τ sig) → Buf (Elt Ideal) ℓ) (c : Dev nD) :
    res_main_v52 m c
      = layerR (m ((c.tc : Thread nD τ).loc main_arg1)) (m ((c.tc : Thread nD τ).loc main_arg2))
          (layerR (m ((c.tc : Thread nD τ).loc main_arg1)) (m ((c.tc : Thread nD τ).loc main_arg2))
            (embedRows (m ((c.tc : Thread nD τ).loc main_arg4)) (m ((c.tc : Thread nD τ).loc main_arg0)))
            (m ((c.tc : Thread nD τ).loc main_arg5)) (m ((c.tc : Thread nD τ).loc main_arg6)) (m ((c.tc : Thread nD τ).loc main_arg3)))
          (m ((c.tc : Thread nD τ).loc main_arg7)) (m ((c.tc : Thread nD τ).loc main_arg8)) (m ((c.tc : Thread nD τ).loc main_arg3)) := by
  unfold res_main_v52 layerR gateR segSum edgeRows projR embedRows wrapN wrapE
  rfl

/-- The host's dense product at row `r`, column `q` is the sum over `k` of `h[r,k] · w[k,q]`: its contraction has one axis of
    extent 128, and the operand indices at output `(r, q)` and contraction coordinate `k` are `(r, k)` and `(k, q)`. -/
theorem dot_ix2 (h : FVec Ideal S100000x128 .f32) (w : FVec Ideal S128x128 .f32) (r : Fin 100000) (q : Fin 128) :
    Host.dotGeneral dot_S100000x128_S128x128_S100000x128_1_0_0_1_n_n none h w (ValueIdx.ix2 r q)
      = ∑ k : Fin 128, h (ValueIdx.ix2 r k) * w (ValueIdx.ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ValueIdx.ix2 r q) ((ValueIdx.contrEquiv1 dot_S100000x128_S128x128_S100000x128_1_0_0_1_n_n 128 rfl rfl).symm k) = ValueIdx.ix2 r k :=
    funext fun a => Fin.ext (by
      match a with
      | ⟨0, _⟩ => exact Read.lhs_main_v7_0 _ _
      | ⟨1, _⟩ => exact (Read.lhs_main_v7_1 _ _).trans hk)
  have er : dot_S100000x128_S128x128_S100000x128_1_0_0_1_n_n.rhsIdx (ValueIdx.ix2 r q) ((ValueIdx.contrEquiv1 dot_S100000x128_S128x128_S100000x128_1_0_0_1_n_n 128 rfl rfl).symm k) = ValueIdx.ix2 k q :=
    funext fun a => Fin.ext (by
      match a with
      | ⟨0, _⟩ => exact (Read.rhs_main_v7_0 _ _).trans hk
      | ⟨1, _⟩ => exact Read.rhs_main_v7_1 _ _)
  rw [el, er]

/-- The norm column broadcast along the features reads `n[r,0]` at `(r, q)`. -/
theorem bcastN_ix2 (n : FVec Ideal S100000x1 .f32) (r : Fin 100000) (q : Fin 128) :
    broadcastInDim S100000x128 ![0, 1] bcast_S100000x1_S100000x128_0_1 n (ValueIdx.ix2 r q) = n (ValueIdx.ix2 r (0 : Fin 1)) :=
  broadcastInDim_apply _ bcast_S100000x1_S100000x128_0_1 n (ValueIdx.ix2 r q) (ValueIdx.ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else q.val; rw [if_pos rfl])

/-- The bias, made a [1, 128] row and broadcast along the nodes, reads `b[q]` at `(r, q)`. -/
theorem bcastB_ix2 (b : FVec Ideal S128 .f32) (r : Fin 100000) (q : Fin 128) :
    broadcastInDim S100000x128 ![0, 1] bcast_S1x128_S100000x128_0_1 (broadcastInDim S1x128 ![1] bcast_S128_S1x128_1 b) (ValueIdx.ix2 r q)
      = b (ValueIdx.ix1 q) :=
  (broadcastInDim_apply _ bcast_S1x128_S100000x128_0_1 (broadcastInDim S1x128 ![1] bcast_S128_S1x128_1 b) (ValueIdx.ix2 r q)
    (ValueIdx.ix2 (0 : Fin 1) q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])).trans
  (broadcastInDim_apply _ bcast_S128_S1x128_1 b (ValueIdx.ix2 (0 : Fin 1) q) (ValueIdx.ix1 q) (fun a => match a with
    | ⟨0, _⟩ => by show q.val = if (128 : Nat) = 1 then 0 else q.val; rw [if_neg (by decide)]))

/-- A scalar constant broadcast to the whole array reads the constant everywhere. -/
theorem bcastC_ix2 (c : BitVec FTy.f32.bits) (r : Fin 100000) (q : Fin 128) :
    broadcastInDim S100000x128 ![] bcast_S_S100000x128 (constant (F := Ideal) S_ .f32 c) (ValueIdx.ix2 r q) = Ideal.ofBits .f32 c :=
  broadcastInDim_apply _ bcast_S_S100000x128 (constant (F := Ideal) S_ .f32 c) (ValueIdx.ix2 r q) ValueIdx.ix0 (fun a => a.elim0)

/-- The reference's dense product scaled by the norm is `Cert.Gcn.proj`, index by index. -/
theorem projR_eq (h : FVec Ideal S100000x128 .f32) (w : FVec Ideal S128x128 .f32) (n : FVec Ideal S100000x1 .f32) :
    projR h w n = Cert.Gcn.proj h w n := by
  funext i
  obtain ⟨r, q, rfl⟩ : ∃ (r : Fin 100000) (q : Fin 128), i = ValueIdx.ix2 r q := ⟨i 0, i 1, ValueIdx.eq_ix2 i⟩
  rw [Cert.Gcn.proj_ix2]
  unfold Cert.Gcn.projAt projR
  rw [ValueIdx.mulf_apply, dot_ix2, bcastN_ix2]

/-- The reference's gate is `Cert.Gcn.gate`, index by index. -/
theorem gateR_eq (agg : FVec Ideal S100000x128 .f32) (n : FVec Ideal S100000x1 .f32) (b : FVec Ideal S128 .f32) :
    gateR agg n b = Cert.Gcn.gate agg n b := by
  funext i
  obtain ⟨r, q, rfl⟩ : ∃ (r : Fin 100000) (q : Fin 128), i = ValueIdx.ix2 r q := ⟨i 0, i 1, ValueIdx.eq_ix2 i⟩
  rw [Cert.Gcn.gate_ix2]
  unfold Cert.Gcn.gateAt Cert.Gcn.leaky gateR
  rw [ValueIdx.select_apply, ValueIdx.cmpf_apply, ValueIdx.mulf_apply, ValueIdx.addf_apply, ValueIdx.mulf_apply,
    bcastN_ix2, bcastB_ix2, bcastC_ix2, bcastC_ix2]

end Cert.ReferenceIdeal.Hand

end
-- ==== Proof.Bridge.lean ====
/-
  One layer is one function in the two programs. They differ in three spellings only: the kernel program's rows are
  read by jnp.take, whose fill never fires when the indices are in range, so it is the reference's gather at the same
  wrapped index; the segment sum is the same host operation; and the projection and the gate are `Cert.Gcn.proj` and
  `Cert.Gcn.gate` on both sides.
-/
import proofs.«418681_j30966714204810_1_alg».proof.Proof.KValue
import proofs.«418681_j30966714204810_1_alg».proof.Proof.KMask
import proofs.«418681_j30966714204810_1_alg».proof.Proof.RefStages

noncomputable section

namespace Cert.Gcn.Bridge

open Idealize.ShloMosaic

/-- The two programs sum the edge rows into their destinations by the same host operation. -/
theorem segSum_eq (dst : IVec Cert.KernelIdeal.S600000 32) (g : FVec Ideal Cert.KernelIdeal.S600000x128 .f32) :
    Cert.KernelIdeal.Hand.segSumK dst g = Cert.ReferenceIdeal.Hand.segSum dst g := rfl

/-- The kernel program's gather at the wrapped source index is the reference's. -/
theorem edgeRows_eq (x : FVec Ideal Cert.KernelIdeal.S100000x128 .f32) (src : IVec Cert.KernelIdeal.S600000 32) :
    Host.gather Cert.KernelIdeal.gather_S100000x128_S600000x1_S600000x128_1_0_n_n_0_1_1128 x (Cert.KernelIdeal.Hand.wrapE src)
      = Cert.ReferenceIdeal.Hand.edgeRows src x := rfl

/-- The kernel program's gather at the wrapped node index is the reference's. -/
theorem embedRows_eq (tbl : FVec Ideal Cert.KernelIdeal.S100000x128 .f32) (idx : IVec Cert.KernelIdeal.S100000 32) :
    Host.gather Cert.KernelIdeal.gather_S100000x128_S100000x1_S100000x128_1_0_n_n_0_1_1128 tbl (Cert.KernelIdeal.Hand.wrapN idx)
      = Cert.ReferenceIdeal.Hand.embedRows tbl idx := rfl

/-- With the source indices in range, a layer of the kernel program is a layer of the reference. -/
theorem layer_eq (src dst : IVec Cert.KernelIdeal.S600000 32) (h : FVec Ideal Cert.KernelIdeal.S100000x128 .f32)
    (w : FVec Ideal Cert.KernelIdeal.S128x128 .f32) (b : FVec Ideal Cert.KernelIdeal.S128 .f32) (n : FVec Ideal Cert.KernelIdeal.S100000x1 .f32)
    (hsrc : ∀ i, IntOp.cmpi .sge (src i) 4294867296#32 = 1#1 ∧ IntOp.cmpi .slt (src i) 100000#32 = 1#1) :
    Cert.KernelIdeal.Hand.layerK src dst h w b n = Cert.ReferenceIdeal.Hand.layerR src dst h w b n := by
  unfold Cert.KernelIdeal.Hand.layerK Cert.ReferenceIdeal.Hand.layerR
  rw [Cert.ReferenceIdeal.Hand.gateR_eq, Cert.ReferenceIdeal.Hand.projR_eq, Cert.KernelIdeal.Hand.takeE_eq_gather _ _ hsrc,
    edgeRows_eq, segSum_eq]

/-- With the node ids in range, the kernel program's embedding rows are the reference's. -/
theorem take_eq (tbl : FVec Ideal Cert.KernelIdeal.S100000x128 .f32) (idx : IVec Cert.KernelIdeal.S100000 32)
    (hidx : ∀ i, IntOp.cmpi .sge (idx i) 4294867296#32 = 1#1 ∧ IntOp.cmpi .slt (idx i) 100000#32 = 1#1) :
    Cert.KernelIdeal.Hand.takeN tbl idx = Cert.ReferenceIdeal.Hand.embedRows tbl idx := by
  rw [Cert.KernelIdeal.Hand.takeN_eq_gather _ _ hidx, embedRows_eq]

end Cert.Gcn.Bridge

end
-- ==== Proof.PreRange.lean ====
/-
  The precondition read: where it holds, every entry of the node-id vector and of the source vector lies in
  [-100000, 100000) as a signed word — the range in which the reference's own row reads stay inside their tables.
-/
import proofs.«418681_j30966714204810_1_alg».proof.Pre_finite_inputs
import Idealize.ShloMosaic.PureOps.Ideal
import Idealize.ShloMosaic.Lib.ReduceAll
import Idealize.ShloMosaic.Lib.Affine
import Idealize.ShloMosaic.Lib.ValueIdx
import Idealize.ShloMosaic.Lib.StableHlo.Predicate

noncomputable section

namespace Cert.Gcn.PreRange

open Idealize.ShloMosaic Cert.Pre_finite_inputs

/-- Both operands of a mask's pointwise `and` are 1 where the `and` is 1. -/
theorem andi_at {s : Shape} (x y : IVec s 1) (i : s.Idx) (h : andi x y i = 1#1) : x i = 1#1 ∧ y i = 1#1 :=
  IntOp.andi_eq_one.1 h

/-- The rank-0 shape has one index. -/
local instance : Subsingleton S_.Idx := ⟨fun a b => funext fun d => d.elim0⟩

/-- `jnp.all((v >= lo) & (v < hi))` read back at one element: a reduction by `and` over the whole vector that is 1
    had both comparisons 1 at every index, the scalar bounds broadcast to the vector's shape. -/
theorem range_at {s : Shape} {axes : List (Fin s.rank)} (v : IVec s 32) (lo hi : BitVec 32) (hb : S_.BroadcastsInDim s ![])
    (hr : s.ReducesTo axes S_) (h0 : 0 < S_.numel)
    (e : Host.reduce IntOp.andi
        (andi (cmpi .sge v (broadcastInDim s ![] hb (constantI S_ 32 lo))) (cmpi .slt v (broadcastInDim s ![] hb (constantI S_ 32 hi))))
        (constantI S_ 1 1#1) hr h0 ValueIdx.ix0 = 1#1) (i : s.Idx) :
    IntOp.cmpi .sge (v i) lo = 1#1 ∧ IntOp.cmpi .slt (v i) hi = 1#1 :=
  andi_at _ _ i (Host.reduce_andi_all _ _ hr h0 ValueIdx.ix0 e i)

/-- Both index vectors are in range wherever the precondition is all ones. -/
theorem range_of_pre [Cert.Pre_finite_inputs.Facts] (a0 : IVec S100000 32) (a1 a2 : IVec S600000 32)
    (a3 : FVec Ideal S100000x1 .f32) (a4 : FVec Ideal S100000x128 .f32) (a5 : FVec Ideal S128x128 .f32) (a6 : FVec Ideal S128 .f32)
    (a7 : FVec Ideal S128x128 .f32) (a8 : FVec Ideal S128 .f32)
    (h : Cert.Pre_finite_inputs.fn (F := Ideal) a0 a1 a2 a3 a4 a5 a6 a7 a8 = fun _ => 1#1) :
    (∀ i, IntOp.cmpi .sge (a0 i) 4294867296#32 = 1#1 ∧ IntOp.cmpi .slt (a0 i) 100000#32 = 1#1)
    ∧ (∀ i, IntOp.cmpi .sge (a1 i) 4294867296#32 = 1#1 ∧ IntOp.cmpi .slt (a1 i) 100000#32 = 1#1) := by
  have h0 := congrFun h ValueIdx.ix0
  dsimp only [fn, fn_part1, fn_part2] at h0
  obtain ⟨h35, h41⟩ := andi_at _ _ _ h0
  obtain ⟨-, h34⟩ := andi_at _ _ _ h35
  exact ⟨fun i => range_at a0 _ _ _ _ _ h34 i, fun i => range_at a1 _ _ _ _ _ h41 i⟩

end Cert.Gcn.PreRange

end
-- ==== Proof.lean ====
/-
  The certificate of a two-layer graph convolution: embedding rows at the node ids, then twice
  { rows · W scaled by the node's norm → the rows at the edges' sources → their sum into the destination rows →
    the norm again, the bias, the leaky rectifier with slope f32 0.2 }.
  The kernel program runs the two dense stages of a layer as Pallas regions over ten row blocks (four regions in all)
  and the gather and the segment sum on the host between them; the reference is the same chain in plain jnp. At the
  ideal values both are the same function: a matmul of operands cut to bf16 into a zero accumulator is the plain sum
  over k, as the host's dot_general is; the gate is pointwise; the gather and the segment sum are the host's own
  operations on both sides and are never opened. The one place the programs differ is what a row read OUTSIDE the
  table gives: the kernel program's jnp.take fills it with a NaN word, the reference's indexing clamps. The
  precondition therefore asks, beside finite float inputs, that every node id and every source index lie in
  [-100000, 100000) — the range in which the reference's own reads stay inside their tables (a negative index wraps
  once, the same way in both programs). Under it the fill never fires and the two chains agree array for array.
  Frames: the generated frame certificates of the two kernel programs, and the reference's generated run.
  `preserves`: the ideal pass rewrote nothing.
-/
import proofs.«418681_j30966714204810_1_alg».proof.Defs
import proofs.«418681_j30966714204810_1_alg».proof.Proof.Gen.Kernel
import proofs.«418681_j30966714204810_1_alg».proof.Proof.Gen.Kernel.Frame
import proofs.«418681_j30966714204810_1_alg».proof.Proof.Gen.KernelIdeal
import proofs.«418681_j30966714204810_1_alg».proof.Proof.Gen.KernelIdeal.Frame
import proofs.«418681_j30966714204810_1_alg».proof.Proof.Gen.ReferenceIdeal
import proofs.«418681_j30966714204810_1_alg».proof.Proof.Gen.ReferenceIdeal.Run
import proofs.«418681_j30966714204810_1_alg».proof.Proof.Gen.Pre_finite_inputs
import proofs.«418681_j30966714204810_1_alg».proof.Proof.KRun
import proofs.«418681_j30966714204810_1_alg».proof.Proof.KValue
import proofs.«418681_j30966714204810_1_alg».proof.Proof.Bridge
import proofs.«418681_j30966714204810_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at two layers over the embedding rows: the kernel program by its run read
    back region by region, the reference by its generated run; with the indices in range the two terms are equal. -/
theorem algebraic : Cert.algebraic_KernelIdeal_ReferenceIdeal := by
  intro m ρ m' ρ' hpre hagree
  refine ⟨fun c => Cert.KernelIdeal.Hand.layerK (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.Hand.layerK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Hand.takeN (m ((c.tc : Thread Cert.KernelIdeal.nD Cert.KernelIdeal.τ).loc Cert.KernelIdeal.main_arg4)) (m ((c.tc : Thread Cert.KernelIdeal.nD Cert.KernelIdeal.τ).loc Cert.KernelIdeal.main_arg0))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Hand.result_eq m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨hnode, hsrc⟩ := Cert.Gcn.PreRange.range_of_pre _ _ _ _ _ _ _ _ _ (hpre c)
    obtain ⟨e0, e1, e2, e3, e4, e5, e6, e7, e8⟩ := hagree c
    rw [Cert.ReferenceIdeal.Hand.res_eq m' c, e0, e1, e2, e3, e4, e5, e6, e7, e8]
    beta_reduce
    rw [Cert.Gcn.Bridge.layer_eq _ _ _ _ _ _ hsrc, Cert.Gcn.Bridge.layer_eq _ _ _ _ _ _ hsrc, Cert.Gcn.Bridge.take_eq _ _ hnode]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
